-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩

abbrev nBuf : Space → Nat
  | .hbm => 114
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1, .i32⟩
  | .hbm, ⟨59, _⟩ => ⟨S_, .i32⟩
  | .hbm, ⟨60, _⟩ => ⟨S1700000x1, .i32⟩
  | .hbm, ⟨61, _⟩ => ⟨S1700000x1, .i1⟩
  | .hbm, ⟨62, _⟩ => ⟨S1x1, .i32⟩
  | .hbm, ⟨63, _⟩ => ⟨S1700000x1, .i32⟩
  | .hbm, ⟨64, _⟩ => ⟨S1700000x1, .i1⟩
  | .hbm, ⟨65, _⟩ => ⟨S1700000x1, .i1⟩
  | .hbm, ⟨66, _⟩ => ⟨S_, .i1⟩
  | .hbm, ⟨67, _⟩ => ⟨S1700000, .i1⟩
  | .hbm, ⟨68, _⟩ => ⟨S1700000x128, .f32⟩
  | .hbm, ⟨69, _⟩ => ⟨S1700000x128, .i1⟩
  | .hbm, ⟨70, _⟩ => ⟨S_, .f32⟩
  | .hbm, ⟨71, _⟩ => ⟨S1700000x128, .f32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1, .i32⟩
  | .hbm, ⟨91, _⟩ => ⟨S_, .i32⟩
  | .hbm, ⟨92, _⟩ => ⟨S1700000x1, .i32⟩
  | .hbm, ⟨93, _⟩ => ⟨S1700000x1, .i1⟩
  | .hbm, ⟨94, _⟩ => ⟨S1x1, .i32⟩
  | .hbm, ⟨95, _⟩ => ⟨S1700000x1, .i32⟩
  | .hbm, ⟨96, _⟩ => ⟨S1700000x1, .i1⟩
  | .hbm, ⟨97, _⟩ => ⟨S1700000x1, .i1⟩
  | .hbm, ⟨98, _⟩ => ⟨S_, .i1⟩
  | .hbm, ⟨99, _⟩ => ⟨S1700000, .i1⟩
  | .hbm, ⟨100, _⟩ => ⟨S1700000x128, .f32⟩
  | .hbm, ⟨101, _⟩ => ⟨S1700000x128, .i1⟩
  | .hbm, ⟨102, _⟩ => ⟨S_, .f32⟩
  | .hbm, ⟨103, _⟩ => ⟨S1700000x128, .f32⟩
  | .hbm, ⟨104, _⟩ => ⟨S1700000x128, .f32⟩
  | .hbm, ⟨105, _⟩ => ⟨S1700000x1, .f32⟩
  | .hbm, ⟨106, _⟩ => ⟨S1700000x128, .f32⟩
  | .hbm, ⟨107, _⟩ => ⟨S1700000x128, .f32⟩
  | .hbm, ⟨108, _⟩ => ⟨S_, .f32⟩
  | .hbm, ⟨109, _⟩ => ⟨S100000x128, .f32⟩
  | .hbm, ⟨110, _⟩ => ⟨S1700000x1, .i32⟩
  | .hbm, ⟨111, _⟩ => ⟨S100000x128, .f32⟩
  | .hbm, ⟨112, _⟩ => ⟨S1x128, .f32⟩
  | .hbm, ⟨113, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_8 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S128x128, .f32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S128x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x1, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S128x128_S128x128_1_0 : S128x128.Transposes [1, 0] S128x128
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RefResult.lean ====
/- The reference's run, with its result named by its last stage.
   The reference is one line of 125 host operations. Its first seven make the two index lists (the edge table's rows, each
   followed by one self-loop per node: two concatenations); everything after reads those lists and the six arguments.
   So the line is cut after the seventh operation: the first piece is read operation by operation, the second in one
   pass, and what the second piece reads of the first is named by the stages that compute it. What comes out is the stage
   of the last operation at the six arguments as launched — the same composition of operations, so the last step is by
   unfolding. -/
import proofs.«429876_j43559558316064_1_alg».proof.Proof.RefRun
import proofs.«429876_j43559558316064_1_alg».proof.Proof.RefRead
import Idealize.ShloMosaic.Lib.StableHlo.Run
import Idealize.ShloMosaic.Lib.Pipeline.Frame

noncomputable section

namespace Cert.Gcn.RefResult

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The line cut after its seventh operation. -/
theorem after_cut (W : Valuation τ sig (Elt F)) :
    after (ops (F := F)) W = after (List.drop 7 (ops (F := F))) (after (List.take 7 (ops (F := F))) W) := by
  rw [← StableHlo.after_append, List.take_append_drop]

set_option maxRecDepth 8192 in
set_option maxHeartbeats 4000000 in
/-- The result buffer after the whole line, from any contents `W`: the last stage at the six arguments' contents. -/
theorem result_eq (W : Valuation τ sig (Elt F)) :
    after (ops (F := F)) W (Proc.devRef .tc main_v94)
      = val_main_v94 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_cut]
  have e3 : after (List.take 7 (ops (F := F))) W (Proc.devRef .tc main_v3) = val_main_v3 (F := F) (W (Proc.devRef .tc main_arg1)) := by
    simp only [ops, List.take_succ_cons, List.take_zero]
    after_results
    rfl
  have e6 : after (List.take 7 (ops (F := F))) W (Proc.devRef .tc main_v6) = val_main_v6 (F := F) (W (Proc.devRef .tc main_arg1)) := by
    simp only [ops, List.take_succ_cons, List.take_zero]
    after_results
    rfl
  have h0 : after (List.take 7 (ops (F := F))) W (Proc.devRef .tc main_arg0) = W (Proc.devRef .tc main_arg0) := by
    simp only [ops, List.take_succ_cons, List.take_zero]; after_results
  have h1 : after (List.take 7 (ops (F := F))) W (Proc.devRef .tc main_arg1) = W (Proc.devRef .tc main_arg1) := by
    simp only [ops, List.take_succ_cons, List.take_zero]; after_results
  have h2 : after (List.take 7 (ops (F := F))) W (Proc.devRef .tc main_arg2) = W (Proc.devRef .tc main_arg2) := by
    simp only [ops, List.take_succ_cons, List.take_zero]; after_results
  have h3 : after (List.take 7 (ops (F := F))) W (Proc.devRef .tc main_arg3) = W (Proc.devRef .tc main_arg3) := by
    simp only [ops, List.take_succ_cons, List.take_zero]; after_results
  have h4 : after (List.take 7 (ops (F := F))) W (Proc.devRef .tc main_arg4) = W (Proc.devRef .tc main_arg4) := by
    simp only [ops, List.take_succ_cons, List.take_zero]; after_results
  have h5 : after (List.take 7 (ops (F := F))) W (Proc.devRef .tc main_arg5) = W (Proc.devRef .tc main_arg5) := by
    simp only [ops, List.take_succ_cons, List.take_zero]; after_results
  generalize after (List.take 7 (ops (F := F))) W = W' at e3 e6 h0 h1 h2 h3 h4 h5 ⊢
  simp only [ops, List.drop_succ_cons, List.drop_zero]
  after_results_simp
  simp only [e3, e6, h0, h1, h2, h3, h4, h5]
  rfl

set_option maxRecDepth 8192 in
set_option maxHeartbeats 50000000 in
/-- On every device, from any memory with zero counters: every weakly fair execution of the reference's @main terminates
    with the result buffer at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94)
        = val_main_v94 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v94).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.RefResult

end
-- ==== Proof.IndexRange.lean ====
/-
The index range of a node index word, and the wrap of a negative index.

A 32-bit word `s` is a node index when, read as a signed integer, it lies in
`[-100000, 100000)`.  The wrap adds `100000` to a negative index and leaves a
non-negative one alone; on a node index the wrapped word lies in `[0, 99999]`.
-/
import Idealize.ShloMosaic.PureOps

noncomputable section

namespace Cert.Gcn

open Idealize.ShloMosaic

/-- Read signed: `-100000 ≤ s < 100000` (`4294867296#32` is the word of `-100000`). -/
def IsNodeIndex (s : BitVec 32) : Prop :=
  IntOp.cmpi .sge s 4294867296#32 = 1#1 ∧ IntOp.cmpi .slt s 100000#32 = 1#1

/-- The wrap of a negative index: `s + 100000` where `s < 0`, else `s`. -/
def wrapWord (s : BitVec 32) : BitVec 32 :=
  Scalar.select (IntOp.cmpi .slt s 0#32) (IntOp.addi s 100000#32) s

/-- A one-bit word made of a Boolean is `1` exactly when the Boolean is true. -/
theorem ofBool_eq_one_iff (b : Bool) : BitVec.ofBool b = 1#1 ↔ b = true := by
  cases b <;> decide

/-- The signed reading of the node-index property. -/
theorem isNodeIndex_iff (s : BitVec 32) :
    IsNodeIndex s ↔ -100000 ≤ s.toInt ∧ s.toInt < 100000 := by
  unfold IsNodeIndex IntOp.cmpi
  simp only [ofBool_eq_one_iff, BitVec.sle, BitVec.slt, decide_eq_true_eq]
  have h1 : (4294867296#32 : BitVec 32).toInt = -100000 := by decide
  have h2 : (100000#32 : BitVec 32).toInt = 100000 := by decide
  rw [h1, h2]

/-- The sign test `s < 0`, read signed. -/
theorem cmpi_slt_zero_iff (s : BitVec 32) : IntOp.cmpi .slt s 0#32 = 1#1 ↔ s.toInt < 0 := by
  unfold IntOp.cmpi
  simp only [ofBool_eq_one_iff, BitVec.slt, decide_eq_true_eq]
  have h0 : (0#32 : BitVec 32).toInt = 0 := by decide
  rw [h0]

/-- The signed value of the wrapped word. -/
theorem wrapWord_toInt (s : BitVec 32) (h : IsNodeIndex s) :
    (wrapWord s).toInt = if s.toInt < 0 then s.toInt + 100000 else s.toInt := by
  obtain ⟨hlo, hhi⟩ := (isNodeIndex_iff s).1 h
  have h2 : (100000#32 : BitVec 32).toInt = 100000 := by decide
  unfold wrapWord Scalar.select
  by_cases hneg : s.toInt < 0
  · have hc : IntOp.cmpi .slt s 0#32 = (1 : BitVec 1) := (cmpi_slt_zero_iff s).2 hneg
    rw [if_pos hc, if_pos hneg]
    unfold IntOp.addi
    rw [BitVec.toInt_add, h2]
    exact Int.bmod_eq_of_le_mul_two (by omega) (by omega)
  · have hc : ¬ IntOp.cmpi .slt s 0#32 = (1 : BitVec 1) := fun hc => hneg ((cmpi_slt_zero_iff s).1 hc)
    rw [if_neg hc, if_neg hneg]

theorem wrapWord_inrange (s : BitVec 32) (h : IsNodeIndex s) :
    IntOp.cmpi .sge (wrapWord s) 0#32 = 1#1 ∧ IntOp.cmpi .sle (wrapWord s) 99999#32 = 1#1 := by
  have hw := wrapWord_toInt s h
  obtain ⟨hlo, hhi⟩ := (isNodeIndex_iff s).1 h
  unfold IntOp.cmpi
  simp only [ofBool_eq_one_iff, BitVec.sle, decide_eq_true_eq]
  have h0 : (0#32 : BitVec 32).toInt = 0 := by decide
  have h9 : (99999#32 : BitVec 32).toInt = 99999 := by decide
  rw [h0, h9, hw]
  constructor <;> split <;> omega

/-- The word of a natural number below `100000` is a node index. -/
theorem isNodeIndex_ofNat (p : Nat) (hp : p < 100000) : IsNodeIndex (BitVec.ofNat 32 p) := by
  rw [isNodeIndex_iff]
  have : (BitVec.ofNat 32 p).toInt = (p : Int) := by
    rw [BitVec.toInt_eq_toNat_cond, BitVec.toNat_ofNat]
    omega
  rw [this]
  omega

end Cert.Gcn
-- ==== Proof.PreDecode.lean ====
/-
The index range, read out of the precondition.

The precondition is a conjunction whose last conjunct is the `and` over all edges `e` of
`(src e ≥ -100000) ∧ (src e < 100000)`, where `src` is the first row of the edge list.  If the
whole conjunction is 1, that last reduction is 1, hence every one of its operands is 1, and an
operand being 1 is exactly the statement that `src e` is a node index.
-/
import proofs.«429876_j43559558316064_1_alg».proof.Pre_finite_inputs
import proofs.«429876_j43559558316064_1_alg».proof.Proof.Gen.Pre_finite_inputs
import proofs.«429876_j43559558316064_1_alg».proof.Proof.IndexRange
import Idealize.ShloMosaic.Lib.ReduceAll
import Idealize.ShloMosaic.Lib.ValueIdx

noncomputable section

namespace Cert.Gcn.PreDecode

open Idealize.ShloMosaic
open Cert.Pre_finite_inputs
open Cert.Pre_finite_inputs.Facts

/-- The rank-zero shape has one index. -/
instance subsingleton_scalar_idx : Subsingleton S_.Idx := ⟨fun _ _ => funext fun d => d.elim0⟩

/-- The first row of the edge list, as a vector of 1600000 words. -/
def srcRow (x1 : IVec S2x1600000 32) : IVec S1600000 32 :=
  shapeCast S1600000 (extractStridedSlice S1x1600000 ![0, 0] x1 slices_S2x1600000_S1x1600000_0_0)
    shapeCasts_S1x1600000_S1600000

/-- The range test of the first row, pointwise: what the last reduction of the precondition folds. -/
def srcTest (x1 : IVec S2x1600000 32) : IVec S1600000 1 :=
  andi (cmpi .sge (srcRow x1) (broadcastInDim S1600000 ![] bcast_S_S1600000 (constantI S_ 32 4294867296#32)))
    (cmpi .slt (srcRow x1) (broadcastInDim S1600000 ![] bcast_S_S1600000 (constantI S_ 32 100000#32)))

/-- The precondition is `and` of its earlier conjuncts with the reduction of the range test. -/
theorem fn_eq (x0 : FVec Ideal S100000x128 .f32) (x1 : IVec S2x1600000 32) (x2 : FVec Ideal S128x128 .f32)
    (x3 : FVec Ideal S128 .f32) (x4 : FVec Ideal S128x128 .f32) (x5 : FVec Ideal S128 .f32) :
    ∃ c : BitVec 1, fn (F := Ideal) x0 x1 x2 x3 x4 x5 ValueIdx.ix0
      = IntOp.andi c (Host.reduce IntOp.andi (srcTest x1) (constantI S_ 1 1#1) reducesTo_S1600000_S_d0 h_S_ ValueIdx.ix0) :=
  ⟨_, rfl⟩

/-- Under the precondition every word of the first row of the edge list is a node index. -/
theorem srcRow_isNodeIndex (x0 : FVec Ideal S100000x128 .f32) (x1 : IVec S2x1600000 32) (x2 : FVec Ideal S128x128 .f32)
    (x3 : FVec Ideal S128 .f32) (x4 : FVec Ideal S128x128 .f32) (x5 : FVec Ideal S128 .f32)
    (hpre : fn (F := Ideal) x0 x1 x2 x3 x4 x5 = fun _ => 1#1) :
    ∀ e : S1600000.Idx, Cert.Gcn.IsNodeIndex
      (shapeCast S1600000 (extractStridedSlice S1x1600000 ![0, 0] x1 slices_S2x1600000_S1x1600000_0_0)
        shapeCasts_S1x1600000_S1600000 e) := by
  intro e
  obtain ⟨c, hc⟩ := fn_eq x0 x1 x2 x3 x4 x5
  have h1 : IntOp.andi c (Host.reduce IntOp.andi (srcTest x1) (constantI S_ 1 1#1) reducesTo_S1600000_S_d0 h_S_
      ValueIdx.ix0) = 1#1 := by
    rw [← hc, hpre]
  have h2 := (IntOp.andi_eq_one.1 h1).2
  have h3 : srcTest x1 e = 1#1 := Host.reduce_andi_all (srcTest x1) _ reducesTo_S1600000_S_d0 h_S_ ValueIdx.ix0 h2 e
  have h4 : IntOp.andi (IntOp.cmpi .sge (srcRow x1 e) 4294867296#32) (IntOp.cmpi .slt (srcRow x1 e) 100000#32) = 1#1 := h3
  exact IntOp.andi_eq_one.1 h4

end Cert.Gcn.PreDecode
-- ==== Proof.TakeMask.lean ====
/-
The row gather with its range mask.

A gather of rows by a list of index words first wraps each negative word by `+100000`, then
reads the row at the wrapped word and keeps it only where the wrapped word lies in `[0, 99999]`,
writing the not-a-number word elsewhere.  Where every index word is a node index (read signed, in
`[-100000, 100000)`) the wrapped word is always in range, so the mask is all ones and the masked
gather is the bare gather at the wrapped words.  The list of source indices, the first row of the
edge list followed by `0, 1, …, 99999`, consists of node indices as soon as the edge row does.
-/
import proofs.«429876_j43559558316064_1_alg».proof.Proof.Gen.KernelIdeal
import proofs.«429876_j43559558316064_1_alg».proof.Proof.IndexRange
import Idealize.ShloMosaic.Lib.Pipeline.Value
import Idealize.ShloMosaic.Lib.ValueIdx
import Idealize.ShloMosaic.PureOps.Reduce

noncomputable section

namespace Cert.Gcn.TakeMask

open Idealize.ShloMosaic
open Cert.KernelIdeal
open Cert.KernelIdeal.Facts₀ Cert.KernelIdeal.Facts

/-- The wrap of every index word: `s + 100000` where `s < 0`, else `s`. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The wrapped index words as a column. -/
def idxCol (s : IVec S1700000 32) : IVec S1700000x1 32 :=
  broadcastInDim S1700000x1 ![0] bcast_S1700000_S1700000x1_0 (wrapIdx s)

/-- The range test of the wrapped column: `0 ≤ idx ∧ idx ≤ 99999`, pointwise. -/
def inRange (s : IVec S1700000 32) : IVec S1700000x1 1 :=
  andi (cmpi .sge (idxCol s) (broadcastInDim S1700000x1 ![] bcast_S_S1700000x1 (constantI S_ 32 0#32)))
    (cmpi .sle (idxCol s)
      (broadcastInDim S1700000x1 ![0, 1] bcast_S1x1_S1700000x1_0_1
        (broadcastInDim S1x1 ![1] bcast_S1_S1x1_1 (constantI S1 32 99999#32))))

/-- The row mask: the range test reduced by `and` over the one-element axis. -/
def rowMask (s : IVec S1700000 32) : IVec S1700000 1 :=
  Host.reduce IntOp.andi (inRange s) (constantI S_ 1 1#1) reducesTo_S1700000x1_S1700000_d1 h_S_

/-- The masked gather of rows: the row at the wrapped index where it is in range, the
    not-a-number word elsewhere (the operations in the order the program applies them). -/
def takeRows (h : FVec Ideal S100000x128 .f32) (s : IVec S1700000 32) : FVec Ideal S1700000x128 .f32 :=
  select
    (broadcastInDim S1700000x128 ![0] bcast_S1700000_S1700000x128_0
      (Host.reduce IntOp.andi
        (andi
          (cmpi .sge (broadcastInDim S1700000x1 ![0] bcast_S1700000_S1700000x1_0 (wrapIdx s))
            (broadcastInDim S1700000x1 ![] bcast_S_S1700000x1 (constantI S_ 32 0#32)))
          (cmpi .sle (broadcastInDim S1700000x1 ![0] bcast_S1700000_S1700000x1_0 (wrapIdx s))
            (broadcastInDim S1700000x1 ![0, 1] bcast_S1x1_S1700000x1_0_1
              (broadcastInDim S1x1 ![1] bcast_S1_S1x1_1 (constantI S1 32 99999#32)))))
        (constantI S_ 1 1#1) reducesTo_S1700000x1_S1700000_d1 h_S_))
    (Host.gather gather_S100000x128_S1700000x1_S1700000x128_1_0_n_n_0_1_1128 h
      (broadcastInDim S1700000x1 ![0] bcast_S1700000_S1700000x1_0 (wrapIdx s)))
    (broadcastInDim S1700000x128 ![] bcast_S_S1700000x128 (constant S_ .f32 0x7FC00000#32))

/-- The masked gather, with its parts named. -/
theorem takeRows_eq (h : FVec Ideal S100000x128 .f32) (s : IVec S1700000 32) :
    takeRows h s = select (broadcastInDim S1700000x128 ![0] bcast_S1700000_S1700000x128_0 (rowMask s))
      (Host.gather gather_S100000x128_S1700000x1_S1700000x128_1_0_n_n_0_1_1128 h (idxCol s))
      (broadcastInDim S1700000x128 ![] bcast_S_S1700000x128 (constant S_ .f32 0x7FC00000#32)) := rfl

/-- The wrap, pointwise. -/
theorem wrapIdx_apply (s : IVec S1700000 32) (e : S1700000.Idx) : wrapIdx s e = wrapWord (s e) := rfl

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- On node indices the range test holds everywhere. -/
theorem inRange_eq_one (s : IVec S1700000 32) (hs : ∀ e : S1700000.Idx, Cert.Gcn.IsNodeIndex (s e))
    (k : S1700000x1.Idx) : inRange s k = 1#1 := by
  obtain ⟨h0, h9⟩ := wrapWord_inrange _ (hs (fun a =>
    if h1 : S1700000.size a = 1 then ⟨0, by omega⟩ else ⟨(k ((![0] : Fin 1 → Fin S1700000x1.rank) a)).val, by
      rcases (bcast_S1700000_S1700000x1_0).2 a with h2 | h2
      · exact absurd h2 h1
      · rw [h2]; exact (k _).isLt⟩))
  show IntOp.andi (IntOp.cmpi .sge (idxCol s k) 0#32) (IntOp.cmpi .sle (idxCol s k) 99999#32) = 1#1
  show IntOp.andi (IntOp.cmpi .sge (wrapWord (s _)) 0#32) (IntOp.cmpi .sle (wrapWord (s _)) 99999#32) = 1#1
  rw [h0, h9]
  rfl

/-- On node indices the row mask is all ones. -/
theorem rowMask_eq_one (s : IVec S1700000 32) (hs : ∀ e : S1700000.Idx, Cert.Gcn.IsNodeIndex (s e))
    (j : S1700000.Idx) : rowMask s j = 1#1 := by
  unfold rowMask
  rw [Host.reduce_eq_foldl]
  exact foldl_andi_one (inRange s) _ fun n _ => inRange_eq_one s hs n

/-- On node indices the masked gather is the bare gather at the wrapped words. -/
theorem takeRows_eq_gather (h : FVec Ideal S100000x128 .f32) (s : IVec S1700000 32)
    (hs : ∀ e : S1700000.Idx, Cert.Gcn.IsNodeIndex (s e)) :
    takeRows h s = Host.gather gather_S100000x128_S1700000x1_S1700000x128_1_0_n_n_0_1_1128 h
      (broadcastInDim S1700000x1 ![0] bcast_S1700000_S1700000x1_0 (wrapIdx s)) := by
  funext i
  rw [takeRows_eq, ValueIdx.select_apply]
  have hm : broadcastInDim S1700000x128 ![0] bcast_S1700000_S1700000x128_0 (rowMask s) i = 1#1 :=
    rowMask_eq_one s hs _
  rw [hm, ValueIdx.select_one]
  rfl

/-- The source indices: the first row of the edge list, then `0, 1, …, 99999`. -/
def srcList (x1 : IVec S2x1600000 32) : IVec S1700000 32 :=
  concatenate S1700000 0
    [⟨S1600000, shapeCast S1600000 (extractStridedSlice S1x1600000 ![0, 0] x1 slices_S2x1600000_S1x1600000_0_0)
        shapeCasts_S1x1600000_S1600000⟩,
     ⟨S100000, iotaInDim S100000 32 0⟩]
    concatenates_S1600000_S100000_S1700000_d0

/-- The source indices are node indices as soon as the edge row's are. -/
theorem srcList_isNodeIndex (x1 : IVec S2x1600000 32)
    (h : ∀ e : S1600000.Idx, Cert.Gcn.IsNodeIndex
      (shapeCast S1600000 (extractStridedSlice S1x1600000 ![0, 0] x1 slices_S2x1600000_S1x1600000_0_0)
        shapeCasts_S1x1600000_S1600000 e)) :
    ∀ e : S1700000.Idx, Cert.Gcn.IsNodeIndex (srcList x1 e) := by
  intro e
  unfold srcList
  by_cases he : (e 0).val < 1600000
  · rw [concatenate_pair_apply_left (t := S1700000) (s₁ := S1600000) (s₂ := S100000) 0 _ _
      concatenates_S1600000_S100000_S1700000_d0 e rfl (ValueIdx.ix1 ⟨(e 0).val, he⟩)
      (fun b => by match b with | ⟨0, _⟩ => rfl)]
    exact h _
  · have hlt : (e 0).val < 1700000 := (e 0).isLt
    rw [concatenate_pair_apply_right (t := S1700000) (s₁ := S1600000) (s₂ := S100000) 0 _ _
      concatenates_S1600000_S100000_S1700000_d0 e rfl rfl
      (ValueIdx.ix1 ⟨(e 0).val - 1600000, by omega⟩)
      (fun b hb => by match b with | ⟨0, _⟩ => exact absurd rfl hb)
      (by show (e 0).val - 1600000 + 1600000 = (e 0).val; omega)]
    exact isNodeIndex_ofNat _ (by show (e 0).val - 1600000 < 100000; omega)

end Cert.Gcn.TakeMask
-- ==== Proof.MatmulAt.lean ====
/- The product of a block of 5000 rows with the transpose of a 128 × 128 weight matrix, read at an
   entry. At the ideal values (extended reals; the narrowing to the short float format is the
   identity, the accumulator is the zero array) entry (p, q) of  a · wᵀ  is  Σ_k a[p,k] · w[q,k]:
   the contraction runs over the second axis of a and, after the transposition, over the second
   axis of w as well. Both matrix-product kernels of the program end in this one operation. -/
import proofs.«429876_j43559558316064_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx Cert.KernelIdeal Cert.KernelIdeal.Gen

/-- The left operand's row coordinate is the output's row coordinate. -/
theorem lhs_rows_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column coordinate is the contraction index. -/
theorem lhs_rows_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the contraction index. -/
theorem rhs_rows_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate is the output's column coordinate. -/
theorem rhs_rows_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product  a · wᵀ  is  Σ_k a[p,k] · w[q,k]. -/
theorem matmul_rows_apply (a : Vec Ideal S5000x128 .f32) (w : Vec Ideal S128x128 .f32) (p : Fin 5000) (q : Fin 128) :
    matmul dot_S5000x128_S128x128_S5000x128_1_0_0_1_n_n none (truncf .bf16 a bitsLt_bf16_f32)
        (transpose S128x128 [1, 0] (truncf .bf16 w bitsLt_bf16_f32) transposes_S128x128_p1_0_S128x128)
        (constant (F := Ideal) S5000x128 .f32 0x00000000#32) (ix2 p q)
      = ∑ k : Fin 128, a (ix2 p k) * w (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun b => Fin.ext (by
    match b with
    | ⟨0, _⟩ => exact lhs_rows_0 _ _
    | ⟨1, _⟩ => exact (lhs_rows_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun b => Fin.ext (by
    match b with
    | ⟨0, _⟩ => exact (rhs_rows_0 _ _).trans hk
    | ⟨1, _⟩ => exact rhs_rows_1 _ _)
  rw [el, er, truncf_apply]
  refine congrArg (a (ix2 p k) * ·) ?_
  refine (transpose_apply [1, 0] _ transposes_S128x128_p1_0_S128x128 (ix2 k q) (ix2 q k) (fun b => match b with
    | ⟨0, _⟩ => rfl
    | ⟨1, _⟩ => rfl)).trans ?_
  rfl

end Cert.Gcn

end
-- ==== Proof.Region0.lean ====
/- The first matrix-product region as a whole-array value. The region runs 20 grid points; point t
   loads rows 5000 t … 5000 t + 4999 of x and all of W₁ and stores (x_blk · W₁ᵀ) into the same rows
   of the output. Every point writes its block back and the 20 blocks tile the 100000 rows, so the
   output array ends holding  out[r, j] = Σ_k x[r, k] · W₁[j, k]  — the reference's dot_general of
   x with the transposed weight — whatever the region found in its arrays on entry. -/
import proofs.«429876_j43559558316064_1_alg».proof.Proof.Gen.KernelIdeal.Frame
import proofs.«429876_j43559558316064_1_alg».proof.Proof.RefRead
import proofs.«429876_j43559558316064_1_alg».proof.Proof.MatmulAt
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

namespace Region0

/-- The zero offsets of a whole-buffer access. -/
theorem zero_offsets : (![0, 0] : Fin 2 → Nat) = fun _ => 0 := funext fun a => by fin_cases a <;> rfl

end Region0

/-- The product as one function of the two arrays: entry (r, j) is  Σ_k x[r, k] · W₁[j, k]. -/
abbrev rowsProduct (X : S100000x128.Idx → Elt Ideal .f32) (W : S128x128.Idx → Elt Ideal .f32) : S100000x128.Idx → Elt Ideal .f32 :=
  fun i => ∑ k : Fin 128, X (ix2 (i 0) k) * W (ix2 (i 1) k)

/-- The reference's dot_general of x with the transposed weight is that function: at entry (r, j)
    the left factor is x[r, k] and the right factor, read through the transposition, is W₁[j, k]. -/
theorem ref_product_eq (X : S100000x128.Idx → Elt Ideal .f32) (W : S128x128.Idx → Elt Ideal .f32) :
    Cert.ReferenceIdeal.ReadP.val_main_v8 (F := Ideal) X W = rowsProduct X W := by
  funext i
  obtain ⟨r, j, rfl⟩ : ∃ (r : Fin 100000) (j : Fin 128), i = ix2 r j := ⟨i 0, i 1, eq_ix2 i⟩
  rw [Cert.ReferenceIdeal.ReadP.val_main_v8_apply]
  refine Finset.sum_congr rfl fun k _ => ?_
  rw [Cert.ReferenceIdeal.ReadP.val_main_v7_apply]
  have el : Cert.ReferenceIdeal.ReadP.lidx_main_v8 (ix2 r j) k = ix2 r k :=
    funext fun a => Fin.ext (by match a with | ⟨0, _⟩ => rfl | ⟨1, _⟩ => rfl)
  have er : Cert.ReferenceIdeal.ReadP.idx_main_v7 (Cert.ReferenceIdeal.ReadP.ridx_main_v8 (ix2 r j) k) = ix2 j k :=
    funext fun a => Fin.ext (by match a with | ⟨0, _⟩ => rfl | ⟨1, _⟩ => rfl)
  rw [el, er]

namespace Region0

/-- The printed index maps, decided once over the 20 grid points: the x window moves with the output
    window (block row t, block column 0); the weight window stays at block (0, 0). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One point's stored block at an entry: if row (j 0) of the loaded x block is row (i 0) of x and
    row (j 1) of the loaded weight block is row (i 1) of W₁, the payload at j is the product at i. -/
theorem block_product_apply (X : S100000x128.Idx → Elt Ideal .f32) (W : S128x128.Idx → Elt Ideal .f32)
    (a : Vec Ideal S5000x128 .f32) (w : Vec Ideal S128x128 .f32) (j : S5000x128.Idx) (i : S100000x128.Idx)
    (ha : ∀ k : Fin 128, a (ix2 (j 0) k) = X (ix2 (i 0) k))
    (hw : ∀ k : Fin 128, w (ix2 (j 1) k) = W (ix2 (i 1) k)) :
    k0_pay1 a w j = rowsProduct X W i := by
  obtain ⟨p, q, rfl⟩ : ∃ (p : Fin 5000) (q : Fin 128), j = ix2 p q := ⟨j 0, j 1, eq_ix2 j⟩
  refine (matmul_rows_apply a w p q).trans ?_
  exact Finset.sum_congr rfl fun k _ => by rw [ha k, hw k]

/-- An index of the output array is in point t's block iff each coordinate is in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The 20 blocks of 5000 rows tile the 100000 rows: row r lies in the block of point r / 5000,
    and every point writes its block back. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := block_indices t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

section
variable (V : (c : Dev nD) → (b : Ref sig .tc) → Buf (Elt Ideal) ((c : Thread nD τ).loc b))

/-- What point t writes back is block t of the product of the arrays as the region finds them: the
    x block's row p is row 5000 t + p of x, the weight block is all of W₁, and the output block's
    entry (p, q) sits at (5000 t + p, q). -/
theorem flushed_eq (c : Dev nD) (t : Fin cfg0.N) :
    (dat0 V c).flushed 2 t = ((cfg0.win 2).blk t).view.read (Elt Ideal) (rowsProduct (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext y
  show k0_pay1 (iblk0 V c 0 t) (iblk0 V c 1 t) ((win0 2).xinj (grid0.coords t) y) = rowsProduct (V c main_arg0) (V c main_arg2) (((cfg0.win 2).blk t).view.emb y)
  refine block_product_apply _ _ _ _ _ _ (fun k => ?_) (fun k => ?_)
  · show V c main_arg0 (((cfg0.win 0).blk t).view.emb (ix2 ((win0 2).xinj (grid0.coords t) y 0) k)) = _
    refine congrArg (V c main_arg0 : S100000x128.Idx → Elt Ideal .f32) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V c main_arg2 (((cfg0.win 1).blk t).view.emb (ix2 ((win0 2).xinj (grid0.coords t) y 1) k)) = _
    refine congrArg (V c main_arg2 : S128x128.Idx → Elt Ideal .f32) (funext fun a => Fin.ext ?_)
    match a with
    | ⟨0, _⟩ => show win0_1.index t (0 : Fin 2) * 128 + 1 * (y 1).val = win0_2.index t (1 : Fin 2) * 128 + 1 * (y 1).val; omega
    | ⟨1, _⟩ => show win0_1.index t (1 : Fin 2) * 128 + 1 * k.val = k.val; omega

end
end Region0

section
open Region0
variable (V : (c : Dev nD) → (b : Ref sig .tc) → Buf (Elt Ideal) ((c : Thread nD τ).loc b))

/-- The output array after the region is the product of x with the transposed weight, whole. -/
theorem region0_rows (c : Dev nD) :
    (dat0 V c).arrAt 2 cfg0.N = rowsProduct (V c main_arg0) (V c main_arg2) :=
  (dat0 V c).arrAt_eq_of_cover 2 (rowsProduct (V c main_arg0) (V c main_arg2)) (fun t _ => flushed_eq V c t) rows_covered

/-- The same against the reference's own term: the region's output array is the reference's
    dot_general of x with the transposed weight, of the arrays as the region finds them. -/
theorem region0_value (c : Dev nD) :
    (dat0 V c).arrAt 2 cfg0.N = Cert.ReferenceIdeal.ReadP.val_main_v8 (F := Ideal) (V c main_arg0) (V c main_arg2) :=
  (region0_rows V c).trans (ref_product_eq (V c main_arg0) (V c main_arg2)).symm

end

end Cert.Gcn

end
-- ==== Proof.Region1.lean ====
/- Region 1, the fused bias + relu + product, as a whole-array value at the extended reals.
   The kernel's second grid call runs twenty points. Point t reads rows 5000 t … 5000 t + 4999 of the aggregate, the one
   bias row and the whole second weight matrix, and writes relu(rows + bias) · W₂ᵀ to the same rows of its output. At the
   extended reals the roundings are the identity, so the entry (r, j) written is
       Σ_k max(agg[r, k] + b[0, k], 0) · W₂[j, k]                                            (`fused`).
   Here: the body's value at an entry of its block (`payload_apply`); each input block as entries of its array
   (`rows_block_apply`, `bias_block`, `weight_block`), from the index maps read over the grid (`index_facts`); what a point
   writes back is its block of `fused` (`flushed_eq`); row r lies in the block of point r / 5000, so the twenty blocks
   tile the array (`mem_out_block`, `covered`) and the array ends holding `fused` (`region1_fused`). On the other side
   the reference's second product, read at an entry, is the same sum (`reference_eq_fused`): its relu is a maximum with
   a zero splat, its bias a broadcast of the row, its transposed weights read at (k, j) are W₂[j, k]. So region 1,
   entered with the reference's aggregate, bias and weights, leaves the reference's second product (`region1_value`). -/
import proofs.«429876_j43559558316064_1_alg».proof.Proof.Gen.KernelIdeal.Frame
import proofs.«429876_j43559558316064_1_alg».proof.Proof.RefRead
import proofs.«429876_j43559558316064_1_alg».proof.Proof.MatmulAt
import Idealize.ShloMosaic.Lib.Pipeline.Value
import Idealize.ShloMosaic.Lib.ValueIdx
import Idealize.ShloMosaic.Lib.ValueLayout

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access. -/
theorem zero_offsets : (![0, 0] : Fin 2 → Nat) = fun _ => 0 := funext fun a => by fin_cases a <;> rfl

/-- The body's value at row `p`, column `q` of its block. -/
theorem payload_apply (a : Vec Ideal S5000x128 .f32) (b : Vec Ideal S1x128 .f32) (w : Vec Ideal S128x128 .f32)
    (p : Fin 5000) (q : Fin 128) :
    k1_pay1 (F := Ideal) a b w (ix2 p q)
      = ∑ k : Fin 128, max (a (ix2 p k) + b (ix2 (0 : Fin 1) k)) (Ideal.ofBits .f32 0x00000000#32) * w (ix2 q k) := by
  unfold k1_pay1
  refine (Cert.Gcn.matmul_rows_apply _ w p q).trans ?_
  refine Finset.sum_congr rfl fun k _ => ?_
  congr 1
  show max (shapeCast S5000x128 a shapeCasts_S5000x128_S5000x128 (ix2 p k)
      + broadcastTo S5000x128 (shapeCast S1x128 b shapeCasts_S1x128_S1x128) broadcasts_S1x128_S5000x128 (ix2 p k))
      (Ideal.ofBits .f32 0x00000000#32) = _
  rw [shapeCast_self, shapeCast_self, broadcastTo_1b_ab_apply]

/-- relu(agg + bias) · Wᵀ: entry (r, j) is the sum over k of max(agg[r, k] + bias[0, k], 0) · W[j, k]. -/
def fused (agg : Vec Ideal S100000x128 .f32) (b : Vec Ideal S1x128 .f32) (w : Vec Ideal S128x128 .f32) :
    Vec Ideal S100000x128 .f32 := fun i =>
  ∑ k : Fin 128, max (agg (ix2 (⟨(i 0).val, (i 0).isLt⟩ : Fin 100000) k) + b (ix2 (0 : Fin 1) k)) (Ideal.ofBits .f32 0x00000000#32)
    * w (ix2 (⟨(i 1).val, (i 1).isLt⟩ : Fin 128) k)

/-- The printed index maps over the grid: the row windows (input 0 and the output) sit at block (t, 0), the bias and
    the weight windows at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Input window 0's block at point `t` is rows `5000 t …` of the aggregate. -/
theorem rows_block_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v39 : Vec Ideal S100000x128 .f32) i := by
  obtain ⟨e0, e1, -⟩ := index_facts t
  show V c main_v39 (((cfg1.win 0).blk t).view.emb y) = V c main_v39 i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Input window 1's block at every point is the whole bias row. -/
theorem bias_block (c : Dev nD) (t : Fin cfg1.N) :
    (iblk1 V c 1 t : Vec Ideal S1x128 .f32) = (V c main_v40 : Vec Ideal S1x128 .f32) := by
  obtain ⟨-, -, e0, e1, -⟩ := index_facts t
  funext y
  show V c main_v40 (((cfg1.win 1).blk t).view.emb y) = V c main_v40 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- Input window 2's block at every point is the whole weight matrix. -/
theorem weight_block (c : Dev nD) (t : Fin cfg1.N) :
    (iblk1 V c 2 t : Vec Ideal S128x128 .f32) = (V c main_arg4 : Vec Ideal S128x128 .f32) := by
  obtain ⟨-, -, -, -, e0, e1, -⟩ := index_facts t
  funext y
  show V c main_arg4 (((cfg1.win 2).blk t).view.emb y) = V c main_arg4 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- What point `t` writes back is block `t` of `fused` of the three arrays as the region finds them. -/
theorem flushed_eq (c : Dev nD) (t : Fin cfg1.N) :
    (dat1 V c).flushed 3 t
      = ((cfg1.win 3).blk t).view.read (Elt Ideal) (fused (V c main_v39) (V c main_v40) (V c main_arg4)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x128) zero_offsets]
  obtain ⟨-, -, -, -, -, -, e0, e1⟩ := index_facts t
  funext j
  show k1_pay1 (F := Ideal) (iblk1 V c 0 t) (iblk1 V c 1 t) (iblk1 V c 2 t) j
    = fused (V c main_v39) (V c main_v40) (V c main_arg4) (((cfg1.win 3).blk t).view.emb j)
  obtain ⟨p, q, rfl⟩ : ∃ (p : Fin 5000) (q : Fin 128), j = ix2 p q := ⟨j 0, j 1, eq_ix2 j⟩
  refine (payload_apply (iblk1 V c 0 t) (iblk1 V c 1 t) (iblk1 V c 2 t) p q).trans ?_
  rw [bias_block V c t, weight_block V c t]
  unfold fused
  refine Finset.sum_congr rfl fun k _ => ?_
  have hr : (((cfg1.win 3).blk t).view.emb (ix2 p q) 0).val = t.val * 5000 + p.val := by
    show win1_3.index t (0 : Fin 2) * 5000 + 1 * p.val = _; rw [e0]; omega
  have hq : (((cfg1.win 3).blk t).view.emb (ix2 p q) 1).val = q.val := by
    show win1_3.index t (1 : Fin 2) * 128 + 1 * q.val = _; rw [e1]; omega
  rw [rows_block_apply V c t (ix2 p k) (ix2 ⟨(((cfg1.win 3).blk t).view.emb (ix2 p q) 0).val, (((cfg1.win 3).blk t).view.emb (ix2 p q) 0).isLt⟩ k) hr rfl]
  congr 2
  exact congrArg (fun z => ix2 z k) (Fin.ext hq.symm)

/-- An index of the array is in point `t`'s output block iff each coordinate is in the block's range on its axis. -/
theorem mem_out_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v41).slice (win1_3.rect t)).set ↔ _
  rw [View.set_slice_whole, Rect.mem_set_unit]
  exact Iff.rfl

/-- Row `r` is in the block of point `r / 5000`: the twenty blocks tile the array. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_out_block]
  obtain ⟨-, -, -, -, -, -, e0, e1⟩ := index_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- After region 1 the output array holds `fused` of the aggregate, the bias row and the weights as the region found them. -/
theorem region1_fused (c : Dev nD) :
    (dat1 V c).arrAt 3 cfg1.N = fused (V c main_v39) (V c main_v40) (V c main_arg4) :=
  (dat1 V c).arrAt_eq_of_cover 3 _ (fun t _ => flushed_eq V c t) covered

open Cert.ReferenceIdeal.ReadP in
/-- The reference's second product is `fused` of its aggregate, its bias as a row, and its weights. -/
theorem reference_eq_fused (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal)) :
    val_main_v52 (F := Ideal) x0 x1 x2 x3 x4
      = fused (val_main_v46 (F := Ideal) x0 x1 x2) (shapeCast S1x128 x3 shapeCasts_S128_S1x128) x4 := by
  funext i
  rw [val_main_v52_apply]
  unfold fused
  refine Finset.sum_congr rfl fun k _ => ?_
  rw [val_main_v50_apply, val_main_v49_apply, val_main_v48_apply, val_main_v47_apply, val_main_call1_v0_apply,
    val_main_call1_cst_apply, val_main_v51_apply]
  have eb : idx_main_v47 (idx_main_v48 (lidx_main_v52 i k)) = ix1 k :=
    funext fun a => Fin.ext (by match a with | ⟨0, _⟩ => rfl)
  have el : lidx_main_v52 i k = ix2 (⟨(i 0).val, (i 0).isLt⟩ : Fin 100000) k :=
    funext fun a => Fin.ext (by match a with | ⟨0, _⟩ => rfl | ⟨1, _⟩ => rfl)
  have er : idx_main_v51 (ridx_main_v52 i k) = ix2 (⟨(i 1).val, (i 1).isLt⟩ : Fin 128) k :=
    funext fun a => Fin.ext (by match a with | ⟨0, _⟩ => rfl | ⟨1, _⟩ => rfl)
  rw [eb, el, er, shapeCast_a_1a_apply]
  rfl

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))

/-- Region 1 as a whole-array value: entered with the reference's aggregate, its bias as a row and its weights, it leaves
    the reference's second product in its output array. -/
theorem region1_value (c : Dev nD)
    (hagg : V c main_v39 = Cert.ReferenceIdeal.ReadP.val_main_v46 (F := Ideal) x0 x1 x2)
    (hb : V c main_v40 = shapeCast S1x128 x3 shapeCasts_S128_S1x128)
    (hw : V c main_arg4 = x4) :
    (Cert.KernelIdeal.Gen.dat1 V c).arrAt 3 cfg1.N = Cert.ReferenceIdeal.ReadP.val_main_v52 (F := Ideal) x0 x1 x2 x3 x4 := by
  rw [region1_fused, hagg, hb, hw, reference_eq_fused]

end Cert.Gcn.Region1

end
-- ==== Proof.Region2.lean ====
/- The third pallas_call read as ONE function of whole arrays. Each of its 20 grid points takes rows 5000·t … 5000·t + 4999
   of the aggregated messages and of the node features, and the single bias row, and writes (agg + bias) + x over the same
   rows of the result. The 20 row blocks tile the 100000 rows, so at every (r, j) the result array holds
   agg (r, j) + b (j) + x (r, j): the reference's last two additions, in the same grouping. No law of arithmetic is used. -/
import proofs.«429876_j43559558316064_1_alg».proof.Proof.Gen.KernelIdeal.Frame
import proofs.«429876_j43559558316064_1_alg».proof.Proof.RefRead
import Idealize.ShloMosaic.Lib.Pipeline.Value
import Idealize.ShloMosaic.Lib.ValueIdx
import Idealize.ShloMosaic.PureOps.Ideal.Laws

noncomputable section

namespace Cert.Gcn.Region2

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- Column `i 1` of the one bias row. -/
abbrev biasAt {n : Nat} (i : (⟨2, ![n, 128]⟩ : Shape).Idx) : S1x128.Idx := fun a => match a with
  | ⟨0, _⟩ => ⟨0, Nat.one_pos⟩
  | ⟨1, _⟩ => ⟨(i 1).val, (i 1).isLt⟩

/-- The sum as one function of the three arrays: entry (r, j) is (A (r, j) + B (0, j)) + X (r, j). -/
abbrev biasResidual (A : S100000x128.Idx → Elt Ideal .f32) (B : S1x128.Idx → Elt Ideal .f32) (X : S100000x128.Idx → Elt Ideal .f32) :
    S100000x128.Idx → Elt Ideal .f32 := fun i => (A i + B (biasAt i)) + X i

/-- The body's one stored value at an index of the block: the two row-blocked loads at that index and the bias row at
    its column, added left to right. -/
theorem pay_apply (a : Vec Ideal S5000x128 .f32) (b : Vec Ideal S1x128 .f32) (x : Vec Ideal S5000x128 .f32)
    (j : S5000x128.Idx) : k2_pay1 a b x j = (a j + b (biasAt j)) + x j := by
  unfold k2_pay1
  rw [addf_apply, addf_apply, shapeCast_self, shapeCast_self]
  rw [broadcastTo_apply b _ j (biasAt j) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])]

/-- One point's stored block at an entry: if the loaded blocks' entries are the arrays' entries at `i` (the bias at
    `i`'s column), the stored value at `j` is the sum at `i`. -/
theorem block_sum_apply (A : S100000x128.Idx → Elt Ideal .f32) (B : S1x128.Idx → Elt Ideal .f32) (X : S100000x128.Idx → Elt Ideal .f32)
    (a : Vec Ideal S5000x128 .f32) (b : Vec Ideal S1x128 .f32) (x : Vec Ideal S5000x128 .f32) (j : S5000x128.Idx) (i : S100000x128.Idx)
    (ha : a j = A i) (hb : b (biasAt j) = B (biasAt i)) (hx : x j = X i) :
    k2_pay1 a b x j = biasResidual A B X i := by
  rw [pay_apply, ha, hb, hx]

/-- The printed index maps over the 20 grid points: the two row-blocked inputs move with the output's row block, the bias
    row's block never moves, and no window moves along the feature axis. -/
theorem block_indices : ∀ t : Fin cfg2.N,
    win2_0.index t (0 : Fin 2) = win2_3.index t (0 : Fin 2) ∧ win2_0.index t (1 : Fin 2) = 0
    ∧ win2_2.index t (0 : Fin 2) = win2_3.index t (0 : Fin 2) ∧ win2_2.index t (1 : Fin 2) = 0
    ∧ win2_1.index t (0 : Fin 2) = 0 ∧ win2_1.index t (1 : Fin 2) = 0
    ∧ win2_3.index t (1 : Fin 2) = 0 ∧ win2_3.index t (0 : Fin 2) = t.val :=
  (by decide +kernel : ∀ t : Fin grid2.N, _)

/-- An index of the result array is in grid point `t`'s block iff each coordinate is in the block's range on its axis. -/
theorem mem_block (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v50).slice (win2_3.rect t)).set ↔ _
  rw [View.set_slice_whole, Rect.mem_set_unit]
  exact Iff.rfl

/-- The 20 row blocks tile the array: row `r` is in the block of point `r / 5000`, and every point writes its block back. -/
theorem rows_covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5, e6, e7⟩ := block_indices t
  have e7' : win2_3.index t (0 : Fin 2) = (i 0).val / 5000 := e7
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

section
variable (V : (c : Dev nD) → (b : Ref sig .tc) → Buf (Elt Ideal) ((c : Thread nD τ).loc b))

/-- WHAT GRID POINT `t` WRITES BACK is block `t` of the sum of the three arrays as the region finds them: the two
    row-blocked windows' row p is row 5000 t + p of their arrays, the bias window is the whole bias row, and the output
    block's entry (p, q) sits at (5000 t + p, q). -/
theorem flushed_eq (c : Dev nD) (t : Fin cfg2.N) :
    (dat2 V c).flushed 3 t = ((cfg2.win 3).blk t).view.read (Elt Ideal) (biasResidual (V c main_v48) (V c main_v49) (V c main_arg0)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets]
  obtain ⟨e0, e1, e2, e3, e4, e5, e6, e7⟩ := block_indices t
  funext y
  show k2_pay1 (iblk2 V c 0 t) (iblk2 V c 1 t) (iblk2 V c 2 t) ((win2 3).xinj (grid2.coords t) y)
    = biasResidual (V c main_v48) (V c main_v49) (V c main_arg0) (((cfg2.win 3).blk t).view.emb y)
  refine block_sum_apply _ _ _ _ _ _ _ _ ?_ ?_ ?_
  · show V c main_v48 (((cfg2.win 0).blk t).view.emb ((win2 3).xinj (grid2.coords t) y)) = _
    refine congrArg (V c main_v48 : S100000x128.Idx → Elt Ideal .f32) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * (y 1).val = win2_3.index t (1 : Fin 2) * 128 + 1 * (y 1).val; omega
  · show V c main_v49 (((cfg2.win 1).blk t).view.emb (biasAt ((win2 3).xinj (grid2.coords t) y))) = _
    refine congrArg (V c main_v49 : S1x128.Idx → Elt Ideal .f32) (funext fun a => Fin.ext ?_)
    match a with
    | ⟨0, _⟩ => show win2_1.index t (0 : Fin 2) * 1 + 1 * 0 = 0; omega
    | ⟨1, _⟩ => show win2_1.index t (1 : Fin 2) * 128 + 1 * (y 1).val = win2_3.index t (1 : Fin 2) * 128 + 1 * (y 1).val; omega
  · show V c main_arg0 (((cfg2.win 2).blk t).view.emb ((win2 3).xinj (grid2.coords t) y)) = _
    refine congrArg (V c main_arg0 : S100000x128.Idx → Elt Ideal .f32) (funext fun a => Fin.ext ?_)
    match a with
    | ⟨0, _⟩ => show win2_2.index t (0 : Fin 2) * 5000 + 1 * (y 0).val = win2_3.index t (0 : Fin 2) * 5000 + 1 * (y 0).val; omega
    | ⟨1, _⟩ => show win2_2.index t (1 : Fin 2) * 128 + 1 * (y 1).val = win2_3.index t (1 : Fin 2) * 128 + 1 * (y 1).val; omega

/-- The result array after the region is the sum of the three arrays as the region finds them, whole. -/
theorem region2_sum (c : Dev nD) :
    (dat2 V c).arrAt 3 cfg2.N = biasResidual (V c main_v48) (V c main_v49) (V c main_arg0) :=
  (dat2 V c).arrAt_eq_of_cover 3 (biasResidual (V c main_v48) (V c main_v49) (V c main_arg0)) (fun t _ => flushed_eq V c t) rows_covered

end

open Cert.ReferenceIdeal.ReadP (val_main_v90 val_main_v91 val_main_v92 val_main_v93 val_main_v94 idx_main_v91 idx_main_v92
  val_main_v91_apply val_main_v92_apply val_main_v93_apply val_main_v94_apply)

/-- The reference's last stage is that sum of its aggregated messages, its bias laid out as one row, and its node
    features: its two broadcasts of the bias read, at (r, j), the bias at j. -/
theorem ref_sum_eq
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal)) :
    val_main_v94 (F := Ideal) x0 x1 x2 x3 x4 x5
      = biasResidual (val_main_v90 (F := Ideal) x0 x1 x2 x3 x4) (shapeCast S1x128 x5 shapeCasts_S128_S1x128) x0 := by
  funext i
  rw [val_main_v94_apply, val_main_v93_apply, val_main_v92_apply, val_main_v91_apply]
  show (val_main_v90 (F := Ideal) x0 x1 x2 x3 x4 i + x5 (idx_main_v91 (idx_main_v92 i))) + x0 i
    = (val_main_v90 (F := Ideal) x0 x1 x2 x3 x4 i + shapeCast S1x128 x5 shapeCasts_S128_S1x128 (biasAt i)) + x0 i
  rw [shapeCast_addUnit_apply (d := ![128]) x5 shapeCasts_S128_S1x128 (biasAt i)]
  have hcol : (fun a : Fin 1 => biasAt i a.succ) = idx_main_v91 (idx_main_v92 i) :=
    funext fun a => Fin.ext (by match a with | ⟨0, _⟩ => rfl)
  rw [hcol]

section
variable (V : (c : Dev nD) → (b : Ref sig .tc) → Buf (Elt Ideal) ((c : Thread nD τ).loc b))

/-- THE RESULT ARRAY after the third region is the reference's last stage, whatever the region's entry contents are
    elsewhere, as soon as its three input arrays hold the aggregated messages, the bias row and the node features. -/
theorem region2_value (c : Dev nD)
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (hagg : V c main_v48 = val_main_v90 (F := Ideal) x0 x1 x2 x3 x4)
    (hb : V c main_v49 = shapeCast S1x128 x5 shapeCasts_S128_S1x128)
    (hx : V c main_arg0 = x0) :
    (dat2 V c).arrAt 3 cfg2.N = val_main_v94 (F := Ideal) x0 x1 x2 x3 x4 x5 := by
  rw [region2_sum V c, hagg, hb, hx]
  exact (ref_sum_eq x0 x1 x2 x3 x4 x5).symm

end

end Cert.Gcn.Region2

end
-- ==== Proof.HostStage0.lean ====
/-
The host prefix of the program, up to the entry of its first region, read back.

Before the first region the program computes, on the host, from the edge list alone: the list of
source indices (the first edge row followed by `0, 1, …, 99999`), the list of destination indices
(the second edge row followed by the same), the degree of every node (a scatter-add of ones by
destination), the inverse square root of the degree clamped below by one, kept where the degree is
positive and zero elsewhere, and the edge weight `dinv[src] * dinv[dst]`.  The reference computes
the same values by the same operations on the same operand, so each of these buffers holds, at the
region's entry, the value the reference's corresponding stage function names.  The arguments are
written by no operation and are as launched.
-/
import proofs.«429876_j43559558316064_1_alg».proof.Proof.Gen.KernelIdeal.Frame
import proofs.«429876_j43559558316064_1_alg».proof.Proof.RefRead
import Idealize.ShloMosaic.Lib.StableHlo.Run

noncomputable section

namespace Cert.Gcn.HostStage0

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-- A buffer that no operation of a stretch writes holds after it what it held before. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## After the first stretch: the index lists, the degree mask, the clamped inverse square root -/

theorem W1_src : W1 m ρ c (Proc.devRef .tc main_v5)
    = Cert.ReferenceIdeal.ReadP.val_main_v3 (F := F) (m ((c : Thread nD τ).loc main_arg1)) := by
  show StableHlo.after hostOps0 (W0 m ρ c) (Proc.devRef .tc main_v5) = _
  after_results
  rfl

theorem W1_dst : W1 m ρ c (Proc.devRef .tc main_v6)
    = Cert.ReferenceIdeal.ReadP.val_main_v6 (F := F) (m ((c : Thread nD τ).loc main_arg1)) := by
  show StableHlo.after hostOps0 (W0 m ρ c) (Proc.devRef .tc main_v6) = _
  after_results
  rfl

/-- The degree is positive. -/
theorem W1_mask : W1 m ρ c (Proc.devRef .tc main_v12)
    = Cert.ReferenceIdeal.ReadP.val_main_v14 (F := F) (m ((c : Thread nD τ).loc main_arg1)) := by
  show StableHlo.after hostOps0 (W0 m ρ c) (Proc.devRef .tc main_v12) = _
  after_results
  rfl

/-- The inverse square root of the degree clamped below by one. -/
theorem W1_rsqrt : W1 m ρ c (Proc.devRef .tc main_v15)
    = Cert.ReferenceIdeal.ReadP.val_main_v17 (F := F) (m ((c : Thread nD τ).loc main_arg1)) := by
  show StableHlo.after hostOps0 (W0 m ρ c) (Proc.devRef .tc main_v15) = _
  after_results
  rfl

theorem W1_zero : W1 m ρ c (Proc.devRef .tc main_cst_3)
    = Cert.ReferenceIdeal.ReadP.val_main_cst_3 (F := F) := by
  show StableHlo.after hostOps0 (W0 m ρ c) (Proc.devRef .tc main_cst_3) = _
  after_results
  rfl

/-! ## After the second stretch: the inverse square root where the degree is positive, zero elsewhere -/

theorem W2_src : W2 m ρ c (Proc.devRef .tc main_v5)
    = Cert.ReferenceIdeal.ReadP.val_main_v3 (F := F) (m ((c : Thread nD τ).loc main_arg1)) :=
  (show StableHlo.after hostOps0_1 (W1 m ρ c) (Proc.devRef .tc main_v5) = W1 m ρ c (Proc.devRef .tc main_v5) by
    unwritten hostOps0_1).trans (W1_src m ρ c)

theorem W2_dst : W2 m ρ c (Proc.devRef .tc main_v6)
    = Cert.ReferenceIdeal.ReadP.val_main_v6 (F := F) (m ((c : Thread nD τ).loc main_arg1)) :=
  (show StableHlo.after hostOps0_1 (W1 m ρ c) (Proc.devRef .tc main_v6) = W1 m ρ c (Proc.devRef .tc main_v6) by
    unwritten hostOps0_1).trans (W1_dst m ρ c)

theorem W2_dinv : W2 m ρ c (Proc.devRef .tc main_v16)
    = Cert.ReferenceIdeal.ReadP.val_main_v18 (F := F) (m ((c : Thread nD τ).loc main_arg1)) := by
  have h12 := W1_mask m ρ c
  have h15 := W1_rsqrt m ρ c
  have h3 := W1_zero m ρ c
  show StableHlo.after hostOps0_1 (W1 m ρ c) (Proc.devRef .tc main_v16) = _
  generalize W1 m ρ c = V at h12 h15 h3 ⊢
  after_results
  rw [h12, h15, h3]
  rfl

/-! ## At the first region's entry -/

theorem W3_src : W3 m ρ c (Proc.devRef .tc main_v5)
    = Cert.ReferenceIdeal.ReadP.val_main_v3 (F := F) (m ((c : Thread nD τ).loc main_arg1)) :=
  (show StableHlo.after hostOps0_2 (W2 m ρ c) (Proc.devRef .tc main_v5) = W2 m ρ c (Proc.devRef .tc main_v5) by
    unwritten hostOps0_2).trans (W2_src m ρ c)

theorem W3_dst : W3 m ρ c (Proc.devRef .tc main_v6)
    = Cert.ReferenceIdeal.ReadP.val_main_v6 (F := F) (m ((c : Thread nD τ).loc main_arg1)) :=
  (show StableHlo.after hostOps0_2 (W2 m ρ c) (Proc.devRef .tc main_v6) = W2 m ρ c (Proc.devRef .tc main_v6) by
    unwritten hostOps0_2).trans (W2_dst m ρ c)

/-- The edge weight `dinv[src] * dinv[dst]`. -/
theorem W3_norm : W3 m ρ c (Proc.devRef .tc main_v31)
    = Cert.ReferenceIdeal.ReadP.val_main_v33 (F := F) (m ((c : Thread nD τ).loc main_arg1)) := by
  have h5 := W2_src m ρ c
  have h6 := W2_dst m ρ c
  have h16 := W2_dinv m ρ c
  show StableHlo.after hostOps0_2 (W2 m ρ c) (Proc.devRef .tc main_v31) = _
  generalize W2 m ρ c = V at h5 h6 h16 ⊢
  after_results_simp
  rw [h5, h6, h16]
  rfl

/-! ## The arguments: written by no operation of the three stretches, they are as launched -/

theorem W3_arg0 : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

theorem W3_arg1 : W3 m ρ c (Proc.devRef .tc main_arg1) = m ((c : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c : Thread nD τ).loc main_arg1) := rfl

theorem W3_arg2 : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

end Cert.Gcn.HostStage0
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.HostStage1.lean ====
/- The host stretch between the first and the second region, read back at the extended reals.
   After the first region the program gathers rows of its output h by the list of source indices
   (each negative index word wrapped by +100000, the row kept where the wrapped word is in range and
   the not-a-number word written elsewhere), scales each gathered row by its edge weight, and adds
   the scaled rows into a zero array at the rows named by the destination indices; it also reshapes
   the first bias into a row. Where every source index is a node index the range mask is all ones,
   so the masked gather is the bare gather at the wrapped words, which is what the reference
   computes: entered with the reference's source list, destination list, edge weights and first
   product, the stretch leaves the reference's first aggregate. The index lists, the weights and the
   arguments the stretch only reads are as it found them. -/
import proofs.«429876_j43559558316064_1_alg».proof.Proof.Gen.KernelIdeal.Frame
import proofs.«429876_j43559558316064_1_alg».proof.Proof.RefRead
import proofs.«429876_j43559558316064_1_alg».proof.Proof.TakeMask
import proofs.«429876_j43559558316064_1_alg».proof.Proof.LibTypedRef
import Idealize.ShloMosaic.Lib.StableHlo.Run
import Idealize.ShloMosaic.PureOps.Ideal

noncomputable section

namespace Cert.Gcn.HostStage1

open Cert.KernelIdeal Cert.KernelIdeal.Gen
open Idealize.ShloMosaic Idealize.ShloMosaic.TcCoe Idealize.SL.Sem Idealize.ShloMosaic.StableHlo

/-- A buffer that no operation of a stretch writes holds after it what it held before. -/
local macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Stretches
variable (U : Valuation τ sig (Elt Ideal))

/-- At a reference whose buffer type is the value's type by computation the transports are the identity. -/
theorem ofBuf_v5 (h1 h2 h3) (v : (Proc.devRef (τ := τ) .tc main_v5).ty.Contents (Elt Ideal)) :
    (TRef.of main_v5 h1 h2 h3 : TRef sig ⟨S1700000, .i32⟩).ofBuf v = v := rfl
theorem ofBuf_v32 (h1 h2 h3) (v : (Proc.devRef (τ := τ) .tc main_v32).ty.Contents (Elt Ideal)) :
    (TRef.of main_v32 h1 h2 h3 : TRef sig ⟨S100000x128, .f32⟩).ofBuf v = v := rfl
theorem toBuf_v33 (h1 h2 h3) (v : (⟨S1700000x128, .f32⟩ : BufTy).Contents (Elt Ideal)) :
    (TRef.of main_v33 h1 h2 h3 : TRef sig ⟨S1700000x128, .f32⟩).toBuf v = v := rfl

/-- The first stretch at its result: the masked gather of rows of h by the source indices. -/
theorem take_stretch : StableHlo.after (hostOps1 (F := Ideal)) U (Proc.devRef .tc main_v33)
    = Cert.Gcn.TakeMask.takeRows (U (Proc.devRef .tc main_v32)) (U (Proc.devRef .tc main_v5)) := by
  after_results_simp
  simp only [TRef.ofBuf_toBuf, ofBuf_v5, ofBuf_v32, toBuf_v33]
  rfl

/-- The second stretch at the aggregate: the scaled rows added into a zero array by destination. -/
theorem scatter_stretch : StableHlo.after (hostOps1_1 (F := Ideal)) U (Proc.devRef .tc main_v39)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (U (Proc.devRef .tc main_v6)))
        (mulf (U (Proc.devRef .tc main_v33))
          (broadcastInDim S1700000x128 ![0, 1] bcast_S1700000x1_S1700000x128_0_1
            (broadcastInDim S1700000x1 ![0] bcast_S1700000_S1700000x1_0 (U (Proc.devRef .tc main_v31))))) := by
  after_results

/-- The second stretch at the bias row: the reshape of the first bias. -/
theorem bias_stretch : StableHlo.after (hostOps1_1 (F := Ideal)) U (Proc.devRef .tc main_v40)
    = shapeCast S1x128 (U (Proc.devRef .tc main_arg3)) shapeCasts_S128_S1x128 := by
  after_results
  rfl

/-- What the first stretch only reads, or never touches, it leaves. -/
theorem take_keeps_v5 : StableHlo.after (hostOps1 (F := Ideal)) U (Proc.devRef .tc main_v5) = U (Proc.devRef .tc main_v5) := by not_written hostOps1
theorem take_keeps_v6 : StableHlo.after (hostOps1 (F := Ideal)) U (Proc.devRef .tc main_v6) = U (Proc.devRef .tc main_v6) := by not_written hostOps1
theorem take_keeps_v31 : StableHlo.after (hostOps1 (F := Ideal)) U (Proc.devRef .tc main_v31) = U (Proc.devRef .tc main_v31) := by not_written hostOps1
theorem take_keeps_arg0 : StableHlo.after (hostOps1 (F := Ideal)) U (Proc.devRef .tc main_arg0) = U (Proc.devRef .tc main_arg0) := by not_written hostOps1
theorem take_keeps_arg3 : StableHlo.after (hostOps1 (F := Ideal)) U (Proc.devRef .tc main_arg3) = U (Proc.devRef .tc main_arg3) := by not_written hostOps1
theorem take_keeps_arg4 : StableHlo.after (hostOps1 (F := Ideal)) U (Proc.devRef .tc main_arg4) = U (Proc.devRef .tc main_arg4) := by not_written hostOps1
theorem take_keeps_arg5 : StableHlo.after (hostOps1 (F := Ideal)) U (Proc.devRef .tc main_arg5) = U (Proc.devRef .tc main_arg5) := by not_written hostOps1

/-- What the second stretch only reads, or never touches, it leaves. -/
theorem scatter_keeps_v5 : StableHlo.after (hostOps1_1 (F := Ideal)) U (Proc.devRef .tc main_v5) = U (Proc.devRef .tc main_v5) := by not_written hostOps1_1
theorem scatter_keeps_v6 : StableHlo.after (hostOps1_1 (F := Ideal)) U (Proc.devRef .tc main_v6) = U (Proc.devRef .tc main_v6) := by not_written hostOps1_1
theorem scatter_keeps_v31 : StableHlo.after (hostOps1_1 (F := Ideal)) U (Proc.devRef .tc main_v31) = U (Proc.devRef .tc main_v31) := by not_written hostOps1_1
theorem scatter_keeps_arg0 : StableHlo.after (hostOps1_1 (F := Ideal)) U (Proc.devRef .tc main_arg0) = U (Proc.devRef .tc main_arg0) := by not_written hostOps1_1
theorem scatter_keeps_arg4 : StableHlo.after (hostOps1_1 (F := Ideal)) U (Proc.devRef .tc main_arg4) = U (Proc.devRef .tc main_arg4) := by not_written hostOps1_1
theorem scatter_keeps_arg5 : StableHlo.after (hostOps1_1 (F := Ideal)) U (Proc.devRef .tc main_arg5) = U (Proc.devRef .tc main_arg5) := by not_written hostOps1_1

end Stretches

section Reference
variable (a0 : (⟨Cert.ReferenceIdeal.S100000x128, .f32⟩ : BufTy).Contents (Elt Ideal))
  (a1 : (⟨Cert.ReferenceIdeal.S2x1600000, .i32⟩ : BufTy).Contents (Elt Ideal))
  (a2 : (⟨Cert.ReferenceIdeal.S128x128, .f32⟩ : BufTy).Contents (Elt Ideal))

/-- The reference wraps its source indices the same way: +100000 where negative. -/
theorem ref_wrapped : Cert.ReferenceIdeal.ReadP.val_main_v38 (F := Ideal) a1
    = Cert.Gcn.TakeMask.wrapIdx (Cert.ReferenceIdeal.ReadP.val_main_v3 (F := Ideal) a1) := rfl

/-- The reference's gathered rows: the bare gather of its first product at the wrapped source column. -/
theorem ref_gathered : Cert.ReferenceIdeal.ReadP.val_main_v40 (F := Ideal) a0 a1 a2
    = Host.gather gather_S100000x128_S1700000x1_S1700000x128_1_0_n_n_0_1_1128
        (Cert.ReferenceIdeal.ReadP.val_main_v8 (F := Ideal) a0 a2)
        (broadcastInDim S1700000x1 ![0] bcast_S1700000_S1700000x1_0
          (Cert.Gcn.TakeMask.wrapIdx (Cert.ReferenceIdeal.ReadP.val_main_v3 (F := Ideal) a1))) := rfl

/-- The reference's edge weights as a column repeated across the 128 features. -/
theorem ref_weights : Cert.ReferenceIdeal.ReadP.val_main_v42 (F := Ideal) a1
    = broadcastInDim S1700000x128 ![0, 1] bcast_S1700000x1_S1700000x128_0_1
        (broadcastInDim S1700000x1 ![0] bcast_S1700000_S1700000x1_0
          (Cert.ReferenceIdeal.ReadP.val_main_v33 (F := Ideal) a1)) := rfl

/-- The reference's first aggregate: its scaled gathered rows added into zeros by destination. -/
theorem ref_aggregate : Cert.ReferenceIdeal.ReadP.val_main_v46 (F := Ideal) a0 a1 a2
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (Cert.ReferenceIdeal.ReadP.val_main_v6 (F := Ideal) a1))
        (mulf (Cert.ReferenceIdeal.ReadP.val_main_v40 (F := Ideal) a0 a1 a2) (Cert.ReferenceIdeal.ReadP.val_main_v42 (F := Ideal) a1)) := rfl

end Reference

section Boundary
variable (m : (ℓ : Loc nD τ sig) → Buf (Elt Ideal) ℓ) (ρ : Dev nD → PrngReg) (c : Dev nD)
variable (a0 : (⟨Cert.ReferenceIdeal.S100000x128, .f32⟩ : BufTy).Contents (Elt Ideal))
  (a1 : (⟨Cert.ReferenceIdeal.S2x1600000, .i32⟩ : BufTy).Contents (Elt Ideal))
  (a2 : (⟨Cert.ReferenceIdeal.S128x128, .f32⟩ : BufTy).Contents (Elt Ideal))

/-- The aggregate at the second region's entry. Entered with the reference's source list, destination
    list, edge weights and first product, and every source index a node index, the two stretches
    leave the reference's first aggregate: the range mask of the row gather is all ones, so the
    gathered rows are the reference's, and the scaling and the scatter-add are the same operations. -/
theorem W6_agg
    (hsrc : W4 m ρ c (Proc.devRef .tc main_v5) = Cert.ReferenceIdeal.ReadP.val_main_v3 (F := Ideal) a1)
    (hdst : W4 m ρ c (Proc.devRef .tc main_v6) = Cert.ReferenceIdeal.ReadP.val_main_v6 (F := Ideal) a1)
    (hnorm : W4 m ρ c (Proc.devRef .tc main_v31) = Cert.ReferenceIdeal.ReadP.val_main_v33 (F := Ideal) a1)
    (hh : W4 m ρ c (Proc.devRef .tc main_v32) = Cert.ReferenceIdeal.ReadP.val_main_v8 (F := Ideal) a0 a2)
    (hs : ∀ e : S1700000.Idx, Cert.Gcn.IsNodeIndex (Cert.ReferenceIdeal.ReadP.val_main_v3 (F := Ideal) a1 e)) :
    W6 m ρ c (Proc.devRef .tc main_v39) = Cert.ReferenceIdeal.ReadP.val_main_v46 (F := Ideal) a0 a1 a2 := by
  show StableHlo.after hostOps1_1 (StableHlo.after hostOps1 (W4 m ρ c)) (Proc.devRef .tc main_v39) = _
  rw [scatter_stretch, take_keeps_v6, take_keeps_v31, take_stretch, hsrc, hdst, hnorm, hh,
    Cert.Gcn.TakeMask.takeRows_eq_gather _ _ hs, ref_aggregate, ref_gathered, ref_weights]

/-- The bias row at the second region's entry: the reshape of the first bias as the first region left it. -/
theorem W6_bias : W6 m ρ c (Proc.devRef .tc main_v40)
    = shapeCast S1x128 (W4 m ρ c (Proc.devRef .tc main_arg3)) shapeCasts_S128_S1x128 := by
  show StableHlo.after hostOps1_1 (StableHlo.after hostOps1 (W4 m ρ c)) (Proc.devRef .tc main_v40) = _
  rw [bias_stretch, take_keeps_arg3]

/-- Neither stretch writes the index lists, the edge weights or the arguments. -/
theorem W6_main_v5 : W6 m ρ c (Proc.devRef .tc main_v5) = W4 m ρ c (Proc.devRef .tc main_v5) :=
  (scatter_keeps_v5 _).trans (take_keeps_v5 _)
theorem W6_main_v6 : W6 m ρ c (Proc.devRef .tc main_v6) = W4 m ρ c (Proc.devRef .tc main_v6) :=
  (scatter_keeps_v6 _).trans (take_keeps_v6 _)
theorem W6_main_v31 : W6 m ρ c (Proc.devRef .tc main_v31) = W4 m ρ c (Proc.devRef .tc main_v31) :=
  (scatter_keeps_v31 _).trans (take_keeps_v31 _)
theorem W6_main_arg0 : W6 m ρ c (Proc.devRef .tc main_arg0) = W4 m ρ c (Proc.devRef .tc main_arg0) :=
  (scatter_keeps_arg0 _).trans (take_keeps_arg0 _)
theorem W6_main_arg4 : W6 m ρ c (Proc.devRef .tc main_arg4) = W4 m ρ c (Proc.devRef .tc main_arg4) :=
  (scatter_keeps_arg4 _).trans (take_keeps_arg4 _)
theorem W6_main_arg5 : W6 m ρ c (Proc.devRef .tc main_arg5) = W4 m ρ c (Proc.devRef .tc main_arg5) :=
  (scatter_keeps_arg5 _).trans (take_keeps_arg5 _)

end Boundary

end Cert.Gcn.HostStage1

end
-- ==== Proof.HostStage2.lean ====
/-
The host stretch between the second and the third region, read back at the extended reals.

After the second region the program takes, on the host, the rows of that region's result at the
source indices (each negative index word wrapped by `+100000`, the row kept where the wrapped word
is in `[0, 99999]` and the not-a-number word written elsewhere), multiplies row `e` by the edge
weight `norm[e]`, and adds the rows into a zero array at the destination indices; it also writes
the second bias as a one-row matrix.  Where every source index is a node index the range mask is
all ones, so the masked row gather is the bare gather at the wrapped indices, which is the gather
the reference makes; the reference then scales and scatter-adds by the same operations, over edge
weights it computes a second time by the operations it used the first time.  So, entered with the
reference's index lists, edge weights and second product, the stretch leaves the reference's
second aggregate.  The index lists, the edge weights and the arguments are written by no operation
of the stretch.
-/
import proofs.«429876_j43559558316064_1_alg».proof.Proof.Gen.KernelIdeal.Frame
import proofs.«429876_j43559558316064_1_alg».proof.Proof.RefRead
import proofs.«429876_j43559558316064_1_alg».proof.Proof.TakeMask
import proofs.«429876_j43559558316064_1_alg».proof.Proof.LibTypedRef
import Idealize.ShloMosaic.Lib.StableHlo.Run
import Idealize.ShloMosaic.PureOps.Ideal

noncomputable section

namespace Cert.Gcn.HostStage2

open Cert.KernelIdeal Cert.KernelIdeal.Gen
open Idealize.ShloMosaic Idealize.ShloMosaic.TcCoe Idealize.SL.Sem Idealize.ShloMosaic.StableHlo

/-- A buffer that no operation of a stretch writes holds after it what it held before. -/
local macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The two stretches from ANY contents -/

section FromAny
variable (U : Valuation τ sig (Elt Ideal))

/-- The source list, the second region's result and the gathered rows are held in buffers whose type is the value's
    type by computation: carrying contents to or from them changes nothing. -/
theorem from_src (h1 h2 h3) (v : (Proc.devRef (τ := τ) .tc main_v5).ty.Contents (Elt Ideal)) :
    (TRef.of main_v5 h1 h2 h3 : TRef sig ⟨S1700000, .i32⟩).ofBuf v = v := rfl
theorem from_product (h1 h2 h3) (v : (Proc.devRef (τ := τ) .tc main_v41).ty.Contents (Elt Ideal)) :
    (TRef.of main_v41 h1 h2 h3 : TRef sig ⟨S100000x128, .f32⟩).ofBuf v = v := rfl
theorem to_rows (h1 h2 h3) (v : (⟨S1700000x128, .f32⟩ : BufTy).Contents (Elt Ideal)) :
    (TRef.of main_v42 h1 h2 h3 : TRef sig ⟨S1700000x128, .f32⟩).toBuf v = v := rfl

/-- The row gather leaves the masked rows of the second region's result at the source indices. -/
theorem gather_rows : StableHlo.after (hostOps2 (F := Ideal)) U (Proc.devRef .tc main_v42)
    = Cert.Gcn.TakeMask.takeRows (U (Proc.devRef .tc main_v41)) (U (Proc.devRef .tc main_v5)) := by
  after_results_simp
  simp only [TRef.ofBuf_toBuf, from_src, from_product, to_rows]
  rfl

/-- The scaling and the scatter-add leave the rows, each times its edge weight, added into zeros by destination. -/
theorem scale_scatter : StableHlo.after (hostOps2_1 (F := Ideal)) U (Proc.devRef .tc main_v48)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (U (Proc.devRef .tc main_v6)))
        (mulf (U (Proc.devRef .tc main_v42))
          (broadcastInDim S1700000x128 ![0, 1] bcast_S1700000x1_S1700000x128_0_1
            (broadcastInDim S1700000x1 ![0] bcast_S1700000_S1700000x1_0 (U (Proc.devRef .tc main_v31))))) := by
  after_results

/-- The second bias as a one-row matrix. -/
theorem bias_row : StableHlo.after (hostOps2_1 (F := Ideal)) U (Proc.devRef .tc main_v49)
    = shapeCast S1x128 (U (Proc.devRef .tc main_arg5)) shapeCasts_S128_S1x128 := by
  after_results
  rfl

/-- What the row gather does not write. -/
theorem gather_keeps_v5 : StableHlo.after (hostOps2 (F := Ideal)) U (Proc.devRef .tc main_v5) = U (Proc.devRef .tc main_v5) := by unwritten hostOps2
theorem gather_keeps_v6 : StableHlo.after (hostOps2 (F := Ideal)) U (Proc.devRef .tc main_v6) = U (Proc.devRef .tc main_v6) := by unwritten hostOps2
theorem gather_keeps_v31 : StableHlo.after (hostOps2 (F := Ideal)) U (Proc.devRef .tc main_v31) = U (Proc.devRef .tc main_v31) := by unwritten hostOps2
theorem gather_keeps_arg0 : StableHlo.after (hostOps2 (F := Ideal)) U (Proc.devRef .tc main_arg0) = U (Proc.devRef .tc main_arg0) := by unwritten hostOps2
theorem gather_keeps_arg4 : StableHlo.after (hostOps2 (F := Ideal)) U (Proc.devRef .tc main_arg4) = U (Proc.devRef .tc main_arg4) := by unwritten hostOps2
theorem gather_keeps_arg5 : StableHlo.after (hostOps2 (F := Ideal)) U (Proc.devRef .tc main_arg5) = U (Proc.devRef .tc main_arg5) := by unwritten hostOps2

/-- What the scaling and the scatter-add do not write. -/
theorem scatter_keeps_v5 : StableHlo.after (hostOps2_1 (F := Ideal)) U (Proc.devRef .tc main_v5) = U (Proc.devRef .tc main_v5) := by unwritten hostOps2_1
theorem scatter_keeps_v6 : StableHlo.after (hostOps2_1 (F := Ideal)) U (Proc.devRef .tc main_v6) = U (Proc.devRef .tc main_v6) := by unwritten hostOps2_1
theorem scatter_keeps_v31 : StableHlo.after (hostOps2_1 (F := Ideal)) U (Proc.devRef .tc main_v31) = U (Proc.devRef .tc main_v31) := by unwritten hostOps2_1
theorem scatter_keeps_arg0 : StableHlo.after (hostOps2_1 (F := Ideal)) U (Proc.devRef .tc main_arg0) = U (Proc.devRef .tc main_arg0) := by unwritten hostOps2_1
theorem scatter_keeps_arg4 : StableHlo.after (hostOps2_1 (F := Ideal)) U (Proc.devRef .tc main_arg4) = U (Proc.devRef .tc main_arg4) := by unwritten hostOps2_1
theorem scatter_keeps_arg5 : StableHlo.after (hostOps2_1 (F := Ideal)) U (Proc.devRef .tc main_arg5) = U (Proc.devRef .tc main_arg5) := by unwritten hostOps2_1

end FromAny

/-! ## The reference's second aggregation, stage by stage -/

section Reference
variable (a0 : (⟨Cert.ReferenceIdeal.S100000x128, .f32⟩ : BufTy).Contents (Elt Ideal))
  (a1 : (⟨Cert.ReferenceIdeal.S2x1600000, .i32⟩ : BufTy).Contents (Elt Ideal))
  (a2 : (⟨Cert.ReferenceIdeal.S128x128, .f32⟩ : BufTy).Contents (Elt Ideal))
  (a3 : (⟨Cert.ReferenceIdeal.S128, .f32⟩ : BufTy).Contents (Elt Ideal))
  (a4 : (⟨Cert.ReferenceIdeal.S128x128, .f32⟩ : BufTy).Contents (Elt Ideal))

/-- The edge weights the reference computes for its second layer are those of its first: the same operations on the
    same index lists. -/
theorem ref_weights_again {F : FTy → Type} [FloatOps F]
    (x1 : (⟨Cert.ReferenceIdeal.S2x1600000, .i32⟩ : BufTy).Contents (Elt F)) :
    Cert.ReferenceIdeal.ReadP.val_main_v77 (F := F) x1 = Cert.ReferenceIdeal.ReadP.val_main_v33 (F := F) x1 := rfl

/-- The reference's rows: the bare gather of its second product at the wrapped source indices. -/
theorem ref_rows : Cert.ReferenceIdeal.ReadP.val_main_v84 (F := Ideal) a0 a1 a2 a3 a4
    = Host.gather gather_S100000x128_S1700000x1_S1700000x128_1_0_n_n_0_1_1128
        (Cert.ReferenceIdeal.ReadP.val_main_v52 (F := Ideal) a0 a1 a2 a3 a4)
        (broadcastInDim S1700000x1 ![0] bcast_S1700000_S1700000x1_0
          (Cert.Gcn.TakeMask.wrapIdx (Cert.ReferenceIdeal.ReadP.val_main_v3 (F := Ideal) a1))) := rfl

/-- The reference's edge weights as a column repeated across the 128 features. -/
theorem ref_weight_rows : Cert.ReferenceIdeal.ReadP.val_main_v86 (F := Ideal) a1
    = broadcastInDim S1700000x128 ![0, 1] bcast_S1700000x1_S1700000x128_0_1
        (broadcastInDim S1700000x1 ![0] bcast_S1700000_S1700000x1_0
          (Cert.ReferenceIdeal.ReadP.val_main_v33 (F := Ideal) a1)) := by
  rw [← ref_weights_again]
  rfl

/-- The reference's second aggregate: its rows, each times its edge weight, added into zeros by destination. -/
theorem ref_aggregate : Cert.ReferenceIdeal.ReadP.val_main_v90 (F := Ideal) a0 a1 a2 a3 a4
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (Cert.ReferenceIdeal.ReadP.val_main_v6 (F := Ideal) a1))
        (mulf (Cert.ReferenceIdeal.ReadP.val_main_v84 (F := Ideal) a0 a1 a2 a3 a4)
          (Cert.ReferenceIdeal.ReadP.val_main_v86 (F := Ideal) a1)) := rfl

end Reference

/-! ## At the third region's entry -/

section Boundary
variable (m : (ℓ : Loc nD τ sig) → Buf (Elt Ideal) ℓ) (ρ : Dev nD → PrngReg) (c : Dev nD)
variable (a0 : (⟨Cert.ReferenceIdeal.S100000x128, .f32⟩ : BufTy).Contents (Elt Ideal))
  (a1 : (⟨Cert.ReferenceIdeal.S2x1600000, .i32⟩ : BufTy).Contents (Elt Ideal))
  (a2 : (⟨Cert.ReferenceIdeal.S128x128, .f32⟩ : BufTy).Contents (Elt Ideal))
  (a3 : (⟨Cert.ReferenceIdeal.S128, .f32⟩ : BufTy).Contents (Elt Ideal))
  (a4 : (⟨Cert.ReferenceIdeal.S128x128, .f32⟩ : BufTy).Contents (Elt Ideal))

/-- The aggregate at the third region's entry.  Left by the second region with the reference's source list, destination
    list, edge weights and second product, every source index a node index, the stretch ends with the reference's second
    aggregate: the mask of the row gather is all ones, so the rows are the reference's, and the scaling and the
    scatter-add are the reference's operations. -/
theorem W9_agg
    (hsrc : W7 m ρ c (Proc.devRef .tc main_v5) = Cert.ReferenceIdeal.ReadP.val_main_v3 (F := Ideal) a1)
    (hdst : W7 m ρ c (Proc.devRef .tc main_v6) = Cert.ReferenceIdeal.ReadP.val_main_v6 (F := Ideal) a1)
    (hnorm : W7 m ρ c (Proc.devRef .tc main_v31) = Cert.ReferenceIdeal.ReadP.val_main_v33 (F := Ideal) a1)
    (hh : W7 m ρ c (Proc.devRef .tc main_v41) = Cert.ReferenceIdeal.ReadP.val_main_v52 (F := Ideal) a0 a1 a2 a3 a4)
    (hs : ∀ e : S1700000.Idx, Cert.Gcn.IsNodeIndex (Cert.ReferenceIdeal.ReadP.val_main_v3 (F := Ideal) a1 e)) :
    W9 m ρ c (Proc.devRef .tc main_v48) = Cert.ReferenceIdeal.ReadP.val_main_v90 (F := Ideal) a0 a1 a2 a3 a4 := by
  show StableHlo.after hostOps2_1 (StableHlo.after hostOps2 (W7 m ρ c)) (Proc.devRef .tc main_v48) = _
  rw [scale_scatter, gather_keeps_v6, gather_keeps_v31, gather_rows, hsrc, hdst, hnorm, hh,
    Cert.Gcn.TakeMask.takeRows_eq_gather _ _ hs, ref_aggregate, ref_rows, ref_weight_rows]

/-- The bias row at the third region's entry: the second bias, as the second region left it, as a one-row matrix. -/
theorem W9_bias : W9 m ρ c (Proc.devRef .tc main_v49)
    = shapeCast S1x128 (W7 m ρ c (Proc.devRef .tc main_arg5)) shapeCasts_S128_S1x128 := by
  show StableHlo.after hostOps2_1 (StableHlo.after hostOps2 (W7 m ρ c)) (Proc.devRef .tc main_v49) = _
  rw [bias_row, gather_keeps_arg5]

/-- The stretch writes neither the index lists, nor the edge weights, nor the arguments. -/
theorem W9_main_v5 : W9 m ρ c (Proc.devRef .tc main_v5) = W7 m ρ c (Proc.devRef .tc main_v5) :=
  (scatter_keeps_v5 _).trans (gather_keeps_v5 _)
theorem W9_main_v6 : W9 m ρ c (Proc.devRef .tc main_v6) = W7 m ρ c (Proc.devRef .tc main_v6) :=
  (scatter_keeps_v6 _).trans (gather_keeps_v6 _)
theorem W9_main_v31 : W9 m ρ c (Proc.devRef .tc main_v31) = W7 m ρ c (Proc.devRef .tc main_v31) :=
  (scatter_keeps_v31 _).trans (gather_keeps_v31 _)
theorem W9_main_arg0 : W9 m ρ c (Proc.devRef .tc main_arg0) = W7 m ρ c (Proc.devRef .tc main_arg0) :=
  (scatter_keeps_arg0 _).trans (gather_keeps_arg0 _)
theorem W9_main_arg4 : W9 m ρ c (Proc.devRef .tc main_arg4) = W7 m ρ c (Proc.devRef .tc main_arg4) :=
  (scatter_keeps_arg4 _).trans (gather_keeps_arg4 _)
theorem W9_main_arg5 : W9 m ρ c (Proc.devRef .tc main_arg5) = W7 m ρ c (Proc.devRef .tc main_arg5) :=
  (scatter_keeps_arg5 _).trans (gather_keeps_arg5 _)

end Boundary

end Cert.Gcn.HostStage2

end
-- ==== Proof.KernelValue.lean ====
/- The kernel's result buffer as the reference's last stage of the arguments as launched.
   @main alternates host stretches and the three regions. The host stretches are read in HostStage0/1/2: each names the
   buffers a later step reads by the reference's stage that computes the same array. Here the three regions are joined in:
   a region's exit contents are its entry contents with its output array replaced by what its write-backs leave (the
   Region modules say what that is), and every buffer that is not one of its arrays is as entered. The one hypothesis is
   on the edge table: every source index is a node index, which is what makes the kernel's masked row take the
   reference's plain one. -/
import proofs.«429876_j43559558316064_1_alg».proof.Proof.Gen.KernelIdeal.Frame
import proofs.«429876_j43559558316064_1_alg».proof.Proof.Gen.Pre_finite_inputs
import proofs.«429876_j43559558316064_1_alg».proof.Defs
import proofs.«429876_j43559558316064_1_alg».proof.Proof.RefRead
import proofs.«429876_j43559558316064_1_alg».proof.Proof.PreDecode
import proofs.«429876_j43559558316064_1_alg».proof.Proof.TakeMask
import proofs.«429876_j43559558316064_1_alg».proof.Proof.Region0
import proofs.«429876_j43559558316064_1_alg».proof.Proof.Region1
import proofs.«429876_j43559558316064_1_alg».proof.Proof.Region2
import proofs.«429876_j43559558316064_1_alg».proof.Proof.HostStage0
import proofs.«429876_j43559558316064_1_alg».proof.Proof.HostStage1
import proofs.«429876_j43559558316064_1_alg».proof.Proof.HostStage2

set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v8 val_main_v33 val_main_v46 val_main_v52 val_main_v90 val_main_v94)

variable (m : (ℓ : Loc nD τ sig) → Buf (Elt Ideal) ℓ) (ρ : Dev nD → PrngReg) (c : Dev nD)

/-- The six arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ## The first region: its output is x · W₁ᵀ; nothing else a later step reads is one of its arrays but x itself -/

theorem W4_h : W4 m ρ c (Proc.devRef .tc main_v32) = val_main_v8 (F := Ideal) (a0 m c) (a2 m c) := by
  refine (W4_arr m ρ c 2).trans ((Cert.Gcn.region0_value (V3 m ρ) c).trans ?_)
  show val_main_v8 (F := Ideal) (W3 m ρ c (Proc.devRef .tc main_arg0)) (W3 m ρ c (Proc.devRef .tc main_arg2)) = _
  rw [HostStage0.W3_arg0, HostStage0.W3_arg2]

theorem W4_src : W4 m ρ c (Proc.devRef .tc main_v5) = val_main_v3 (F := Ideal) (a1 m c) :=
  (W4_of_ne m ρ c main_v5 (by decide)).trans (HostStage0.W3_src m ρ c)
theorem W4_dst : W4 m ρ c (Proc.devRef .tc main_v6) = val_main_v6 (F := Ideal) (a1 m c) :=
  (W4_of_ne m ρ c main_v6 (by decide)).trans (HostStage0.W3_dst m ρ c)
theorem W4_norm : W4 m ρ c (Proc.devRef .tc main_v31) = val_main_v33 (F := Ideal) (a1 m c) :=
  (W4_of_ne m ρ c main_v31 (by decide)).trans (HostStage0.W3_norm m ρ c)
theorem W4_arg0 : W4 m ρ c (Proc.devRef .tc main_arg0) = a0 m c :=
  ((W4_arr m ρ c 0).trans (((dat0 (V3 m ρ) c).arrAt_in 0 rfl _).trans (A_eq0 (V3 m ρ) c 0))).trans (HostStage0.W3_arg0 m ρ c)
theorem W4_arg3 : W4 m ρ c (Proc.devRef .tc main_arg3) = a3 m c :=
  (W4_of_ne m ρ c main_arg3 (by decide)).trans (HostStage0.W3_arg3 m ρ c)
theorem W4_arg4 : W4 m ρ c (Proc.devRef .tc main_arg4) = a4 m c :=
  (W4_of_ne m ρ c main_arg4 (by decide)).trans (HostStage0.W3_arg4 m ρ c)
theorem W4_arg5 : W4 m ρ c (Proc.devRef .tc main_arg5) = a5 m c :=
  (W4_of_ne m ρ c main_arg5 (by decide)).trans (HostStage0.W3_arg5 m ρ c)

/-! ## Every source index is a node index -/

/-- The source list, spelt over either program's shapes, is one list. -/
theorem srcList_eq : Cert.Gcn.TakeMask.srcList (a1 m c) = val_main_v3 (F := Ideal) (a1 m c) := rfl

theorem src_isNodeIndex (hpre : Cert.Pre_KernelIdeal m) :
    ∀ e : S1700000.Idx, Cert.Gcn.IsNodeIndex (val_main_v3 (F := Ideal) (a1 m c) e) := by
  intro e
  rw [← srcList_eq]
  exact Cert.Gcn.TakeMask.srcList_isNodeIndex (a1 m c)
    (Cert.Gcn.PreDecode.srcRow_isNodeIndex (a0 m c) (a1 m c) (a2 m c) (a3 m c) (a4 m c) (a5 m c) (hpre c)) e

/-! ## The second region: relu (agg₁ + b₁) · W₂ᵀ -/

section
variable (hpre : Cert.Pre_KernelIdeal m)
include hpre

theorem W6_agg : W6 m ρ c (Proc.devRef .tc main_v39) = val_main_v46 (F := Ideal) (a0 m c) (a1 m c) (a2 m c) :=
  HostStage1.W6_agg m ρ c (a0 m c) (a1 m c) (a2 m c) (W4_src m ρ c) (W4_dst m ρ c) (W4_norm m ρ c) (W4_h m ρ c) (src_isNodeIndex m c hpre)

theorem W7_h : W7 m ρ c (Proc.devRef .tc main_v41) = val_main_v52 (F := Ideal) (a0 m c) (a1 m c) (a2 m c) (a3 m c) (a4 m c) := by
  refine (W7_arr m ρ c 3).trans (Cert.Gcn.Region1.region1_value (V6 m ρ) (a0 m c) (a1 m c) (a2 m c) (a3 m c) (a4 m c) c ?_ ?_ ?_)
  · exact W6_agg m ρ c hpre
  · show W6 m ρ c (Proc.devRef .tc main_v40) = _
    rw [HostStage1.W6_bias, W4_arg3]
  · show W6 m ρ c (Proc.devRef .tc main_arg4) = _
    rw [HostStage1.W6_main_arg4, W4_arg4]

theorem W7_src : W7 m ρ c (Proc.devRef .tc main_v5) = val_main_v3 (F := Ideal) (a1 m c) :=
  (W7_of_ne m ρ c main_v5 (by decide)).trans ((HostStage1.W6_main_v5 m ρ c).trans (W4_src m ρ c))
theorem W7_dst : W7 m ρ c (Proc.devRef .tc main_v6) = val_main_v6 (F := Ideal) (a1 m c) :=
  (W7_of_ne m ρ c main_v6 (by decide)).trans ((HostStage1.W6_main_v6 m ρ c).trans (W4_dst m ρ c))
theorem W7_norm : W7 m ρ c (Proc.devRef .tc main_v31) = val_main_v33 (F := Ideal) (a1 m c) :=
  (W7_of_ne m ρ c main_v31 (by decide)).trans ((HostStage1.W6_main_v31 m ρ c).trans (W4_norm m ρ c))
theorem W7_arg0 : W7 m ρ c (Proc.devRef .tc main_arg0) = a0 m c :=
  (W7_of_ne m ρ c main_arg0 (by decide)).trans ((HostStage1.W6_main_arg0 m ρ c).trans (W4_arg0 m ρ c))
theorem W7_arg5 : W7 m ρ c (Proc.devRef .tc main_arg5) = a5 m c :=
  (W7_of_ne m ρ c main_arg5 (by decide)).trans ((HostStage1.W6_main_arg5 m ρ c).trans (W4_arg5 m ρ c))

/-! ## The third region: agg₂ + b₂ + x -/

theorem W9_agg : W9 m ρ c (Proc.devRef .tc main_v48) = val_main_v90 (F := Ideal) (a0 m c) (a1 m c) (a2 m c) (a3 m c) (a4 m c) :=
  HostStage2.W9_agg m ρ c (a0 m c) (a1 m c) (a2 m c) (a3 m c) (a4 m c) (W7_src m ρ c hpre) (W7_dst m ρ c hpre) (W7_norm m ρ c hpre) (W7_h m ρ c hpre) (src_isNodeIndex m c hpre)

/-- THE KERNEL'S RESULT: after the last region the result buffer holds the reference's last stage of the arguments as
    launched. -/
theorem kernel_value : W10 m ρ c (Proc.devRef .tc main_v50)
    = val_main_v94 (F := Ideal) (a0 m c) (a1 m c) (a2 m c) (a3 m c) (a4 m c) (a5 m c) := by
  refine (W10_arr m ρ c 3).trans (Cert.Gcn.Region2.region2_value (V9 m ρ) c (a0 m c) (a1 m c) (a2 m c) (a3 m c) (a4 m c) (a5 m c) ?_ ?_ ?_)
  · exact W9_agg m ρ c hpre
  · show W9 m ρ c (Proc.devRef .tc main_v49) = _
    rw [HostStage2.W9_bias, W7_arg5 m ρ c hpre]
  · show W9 m ρ c (Proc.devRef .tc main_arg0) = _
    rw [HostStage2.W9_main_arg0, W7_arg0 m ρ c hpre]

end

end Cert.Gcn.KernelValue

end
-- ==== Proof.lean ====
/- Two-layer graph convolution with self-loops: a Pallas program of three kernels around host gathers and scatter-adds,
   against its plain jnp reference, over the extended reals.
   Both programs compute  out = Â (relu (Â (x W₁ᵀ) + b₁) W₂ᵀ) + b₂ + x,  where Â h sums, into each destination row, the source
   rows of h scaled by the edge weight 1/√(deg src · deg dst) (self-loops added, so every degree is at least 1). The edge
   weights, the source and destination lists and the scatter-adds are the same host operations in both programs. The three
   kernels are the two matrix products (20 row blocks of 5000 each; the second fused with bias and relu) and the last
   bias + residual sum; block by block they are the reference's dot_generals and additions (Region0/1/2). The one
   difference is how a row is taken by source index: the kernel's take masks an out-of-range index to a NaN fill, the
   reference's indexing does not. The precondition says every source index is a node index (-100000 ≤ src < 100000, the
   range in which h[src] indexes the 100000-row array), and there the mask is all ones (TakeMask, PreDecode). So the
   kernel's result buffer is the reference's last stage of the same arguments (KernelValue), which is what the
   reference's run leaves (RefResult). No law of real arithmetic is needed and finiteness is not used.
   The frames are the generated ones; the reference's frame is its run with the result dropped. The idealization
   rewrote nothing, so `preserves` is trivial. -/
import proofs.«429876_j43559558316064_1_alg».proof.Defs
import proofs.«429876_j43559558316064_1_alg».proof.Proof.Gen.Kernel
import proofs.«429876_j43559558316064_1_alg».proof.Proof.Gen.Kernel.Frame
import proofs.«429876_j43559558316064_1_alg».proof.Proof.Gen.KernelIdeal
import proofs.«429876_j43559558316064_1_alg».proof.Proof.Gen.KernelIdeal.Frame
import proofs.«429876_j43559558316064_1_alg».proof.Proof.Gen.ReferenceIdeal
import proofs.«429876_j43559558316064_1_alg».proof.Proof.Gen.Pre_finite_inputs
import proofs.«429876_j43559558316064_1_alg».proof.Proof.RunKeep
import proofs.«429876_j43559558316064_1_alg».proof.Proof.RefResult
import proofs.«429876_j43559558316064_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gcn.RefResult.run (F := Ideal) m ρ)

/-- Run from memories that agree on the six arguments, both programs end with the result buffer at the reference's
    last stage of those arguments: the kernel by its run with the result kept and the reading of that buffer, the
    reference by its own run. -/
theorem algebraic : Cert.algebraic_KernelIdeal_ReferenceIdeal := by
  intro m ρ m' ρ' hpre hagree
  refine ⟨_, (θ_run Cert.KernelIdeal.defs _ _).mono (fun _ h c => ⟨(h c).1.trans (Cert.Gcn.KernelValue.kernel_value m ρ c hpre), (h c).2⟩)
    (Cert.KernelIdeal.GenP.run_keep (F := Ideal) m ρ), ?_⟩
  refine (θ_run Cert.ReferenceIdeal.defs _ _).mono (fun _ h c => ⟨(h c).1.trans ?_, (h c).2⟩)
    (Cert.Gcn.RefResult.run (F := Ideal) m' ρ')
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
